-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S16384 : Shape := ⟨1, ![16384]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x1000 .f32) (main_arg1 : IVec S16384 32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 32 := constantI S_ 32 1000#32
  let main_v6 : IVec S16384 32 := broadcastInDim S16384 ![] bcast_S_S16384 main_c_1
  let main_v7 : IVec S16384 1 := cmpi .slt main_arg1 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384x1000 : Shape := ⟨2, ![16384, 1000]⟩
abbrev S16384 : Shape := ⟨1, ![16384]⟩
abbrev S1000 : Shape := ⟨1, ![1000]⟩
abbrev S1000x1 : Shape := ⟨2, ![1000, 1]⟩
abbrev S1x1000 : Shape := ⟨2, ![1, 1000]⟩
abbrev S1000x1000 : Shape := ⟨2, ![1000, 1000]⟩
abbrev S_ : Shape := ⟨0, ![]⟩
abbrev S16384x1 : Shape := ⟨2, ![16384, 1]⟩
abbrev S1x1 : Shape := ⟨2, ![1, 1]⟩
abbrev S512x1000 : Shape := ⟨2, ![512, 1000]⟩
abbrev S512x1 : Shape := ⟨2, ![512, 1]⟩
abbrev S512 : Shape := ⟨1, ![512]⟩
abbrev S1 : Shape := ⟨1, ![1]⟩

abbrev nBuf : Space → Nat
  | .hbm => 43
  | .vmem => 7
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S1000, .i32⟩
  | .hbm, ⟨3, _⟩ => ⟨S1000x1, .i32⟩
  | .hbm, ⟨4, _⟩ => ⟨S1x1000, .i32⟩
  | .hbm, ⟨5, _⟩ => ⟨S1000x1000, .i32⟩
  | .hbm, ⟨6, _⟩ => ⟨S1000x1000, .i32⟩
  | .hbm, ⟨7, _⟩ => ⟨S1000x1000, .i32⟩
  | .hbm, ⟨8, _⟩ => ⟨S1000x1000, .i32⟩
  | .hbm, ⟨9, _⟩ => ⟨S1000x1000, .f32⟩
  | .hbm, ⟨10, _⟩ => ⟨S_, .f32⟩
  | .hbm, ⟨11, _⟩ => ⟨S1000x1000, .f32⟩
  | .hbm, ⟨12, _⟩ => ⟨S1000x1000, .f32⟩
  | .hbm, ⟨13, _⟩ => ⟨S_, .f32⟩
  | .hbm, ⟨14, _⟩ => ⟨S1000x1000, .f32⟩
  | .hbm, ⟨15, _⟩ => ⟨S1000x1000, .f32⟩
  | .hbm, ⟨16, _⟩ => ⟨S_, .f32⟩
  | .hbm, ⟨17, _⟩ => ⟨S1000x1000, .f32⟩
  | .hbm, ⟨18, _⟩ => ⟨S1000x1000, .i1⟩
  | .hbm, ⟨19, _⟩ => ⟨S_, .f32⟩
  | .hbm, ⟨20, _⟩ => ⟨S_, .f32⟩
  | .hbm, ⟨21, _⟩ => ⟨S1000x1000, .f32⟩
  | .hbm, ⟨22, _⟩ => ⟨S1000x1000, .f32⟩
  | .hbm, ⟨23, _⟩ => ⟨S_, .f32⟩
  | .hbm, ⟨24, _⟩ => ⟨S1000, .f32⟩
  | .hbm, ⟨25, _⟩ => ⟨S1000x1, .f32⟩
  | .hbm, ⟨26, _⟩ => ⟨S1000x1000, .f32⟩
  | .hbm, ⟨27, _⟩ => ⟨S1000x1000, .f32⟩
  | .hbm, ⟨28, _⟩ => ⟨S_, .f32⟩
  | .hbm, ⟨29, _⟩ => ⟨S1000x1000, .f32⟩
  | .hbm, ⟨30, _⟩ => ⟨S1000x1000, .f32⟩
  | .hbm, ⟨31, _⟩ => ⟨S_, .f32⟩
  | .hbm, ⟨32, _⟩ => ⟨S1000x1000, .f32⟩
  | .hbm, ⟨33, _⟩ => ⟨S1000x1000, .i1⟩
  | .hbm, ⟨34, _⟩ => ⟨S_, .f32⟩
  | .hbm, ⟨35, _⟩ => ⟨S_, .f32⟩
  | .hbm, ⟨36, _⟩ => ⟨S1000x1000, .f32⟩
  | .hbm, ⟨37, _⟩ => ⟨S1000x1000, .f32⟩
  | .hbm, ⟨38, _⟩ => ⟨S16384x1, .i32⟩
  | .hbm, ⟨39, _⟩ => ⟨S1x1, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S512x1000, .f32⟩
  | .local _ .vmem, ⟨1, _⟩ => ⟨S512x1000, .f32⟩
  | .local _ .vmem, ⟨2, _⟩ => ⟨S512x1, .i32⟩
  | .local _ .vmem, ⟨3, _⟩ => ⟨S512x1, .i32⟩
  | .local _ .vmem, ⟨4, _⟩ => ⟨S1000x1000, .f32⟩
  | .local _ .vmem, ⟨5, _⟩ => ⟨S1x1, .f32⟩
  | .local _ .vmem, ⟨6, _⟩ => ⟨S1x1, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v39 : BitVec 1 := Scalar.cmpi .eq arg0 c31_i32
  let v40 : BitVec 32 := Scalar.extui v39
  let c0_i32_15 : BitVec 32 := 0#32
  let v41 : BitVec 1 := Scalar.cmpi .ne v40 c0_i32_15
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S1000_S1000x1_0 : S1000.BroadcastsInDim S1000x1 (![0] : Fin 1 → Fin S1000x1.rank)
  bcast_S1000_S1x1000_1 : S1000.BroadcastsInDim S1x1000 (![1] : Fin 1 → Fin S1x1000.rank)
  bcast_S1000x1_S1000x1000_0_1 : S1000x1.BroadcastsInDim S1000x1000 (![0, 1] : Fin 2 → Fin S1000x1000.rank)
  bcast_S1x1000_S1000x1000_0_1 : S1x1000.BroadcastsInDim S1000x1000 (![0, 1] : Fin 2 → Fin S1000x1000.rank)
  bcast_S_S1000x1000 : S_.BroadcastsInDim S1000x1000 (![] : Fin 0 → Fin S1000x1000.rank)
  reducesTo_S1000x1000_S1000_d1 : S1000x1000.ReducesTo [1] S1000
  h_S_ : 0 < S_.numel
  shapeCasts_S16384_S16384x1 : S16384.ShapeCasts S16384x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1000_S512x1000_0_0 : ∀ a, (![0, 0] : Fin 2 → Nat) a + S512x1000.size a ≤ S512x1000.size a
  h_S512x1000 : 0 < S512x1000.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x1000_S512 : S512x1000.Reduces [1] S512
  shapeCasts_S512_S512x1 : S512.ShapeCasts S512x1
  broadcasts_S512x1_S512x1000 : S512x1.Broadcasts S512x1000
  iota_S1x1000_d1_w32 : S1x1000.Iotas .tc 32 [1]
  broadcasts_S1x1000_S512x1000 : S1x1000.Broadcasts S512x1000
  natLt_1_32 : 1 < 32
  bitsLt_bf16_f32 : FTy.bits .bf16 < FTy.bits .f32
  inb_S1000x1000_S1000x1000_0_0 : ∀ a, (![0, 0] : Fin 2 → Nat) a + S1000x1000.size a ≤ S1000x1000.size a
  h_S1000x1000 : 0 < S1000x1000.numel
  shapeCasts_S1000x1000_S1000x1000 : S1000x1000.ShapeCasts S1000x1000
  reduces_S512x1_S1 : S512x1.Reduces [0] S1
  shapeCasts_S1_S1x1 : S1.ShapeCasts S1x1
  shapeCasts_S1x1_S_ : S1x1.ShapeCasts S_
  dot_S512x1000_S1000x1000_S512x1000_1_0_0_1_n_n_wf : DotDims.WF S512x1000 S1000x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S16384x1000.size a
  hwx0_0 : ∀ i : grid0.Coords, EltTy.bits .f32 = 32 ∨ (Rect.block (s := S16384x1000) S512x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .i32 = 32 ∨ (Rect.block (s := S16384x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x1000.size a ≤ S1000x1000.size a
  hwx0_2 : ∀ i : grid0.Coords, EltTy.bits .f32 = 32 ∨ (Rect.block (s := S1000x1000) S1000x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S512x1000_S1000x1000_S512x1000_1_0_0_1_n_n : DotDims S512x1000 S1000x1000 S512x1000 where
  lhsContracting := [1]
  rhsContracting := [0]
  lhsNonContracting := [0]
  rhsNonContracting := [1]
  lhsBatch := []
  rhsBatch := []
  wf := dot_S512x1000_S1000x1000_S512x1000_1_0_0_1_n_n_wf

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1000x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S1000 : Shape := ⟨1, ![1000]⟩
abbrev S1000x1 : Shape := ⟨2, ![1000, 1]⟩
abbrev S1x1000 : Shape := ⟨2, ![1, 1000]⟩
abbrev S1000x1000 : Shape := ⟨2, ![1000, 1000]⟩

abbrev nBuf : Space → Nat
  | .hbm => 70
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x1000, .f32⟩
  | .hbm, ⟨9, _⟩ => ⟨S16384x1000, .f32⟩
  | .hbm, ⟨10, _⟩ => ⟨S16384x1000, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x1, .f32⟩
  | .hbm, ⟨15, _⟩ => ⟨S16384x1000, .f32⟩
  | .hbm, ⟨16, _⟩ => ⟨S16384x1000, .f32⟩
  | .hbm, ⟨17, _⟩ => ⟨S1000, .i32⟩
  | .hbm, ⟨18, _⟩ => ⟨S1000x1, .i32⟩
  | .hbm, ⟨19, _⟩ => ⟨S1x1000, .i32⟩
  | .hbm, ⟨20, _⟩ => ⟨S1000x1000, .i32⟩
  | .hbm, ⟨21, _⟩ => ⟨S1000x1000, .i32⟩
  | .hbm, ⟨22, _⟩ => ⟨S1000x1000, .i32⟩
  | .hbm, ⟨23, _⟩ => ⟨S1000x1000, .i32⟩
  | .hbm, ⟨24, _⟩ => ⟨S1000x1000, .f32⟩
  | .hbm, ⟨25, _⟩ => ⟨S_, .f32⟩
  | .hbm, ⟨26, _⟩ => ⟨S1000x1000, .f32⟩
  | .hbm, ⟨27, _⟩ => ⟨S1000x1000, .f32⟩
  | .hbm, ⟨28, _⟩ => ⟨S_, .f32⟩
  | .hbm, ⟨29, _⟩ => ⟨S1000x1000, .f32⟩
  | .hbm, ⟨30, _⟩ => ⟨S1000x1000, .f32⟩
  | .hbm, ⟨31, _⟩ => ⟨S_, .f32⟩
  | .hbm, ⟨32, _⟩ => ⟨S1000x1000, .f32⟩
  | .hbm, ⟨33, _⟩ => ⟨S1000x1000, .i1⟩
  | .hbm, ⟨34, _⟩ => ⟨S_, .f32⟩
  | .hbm, ⟨35, _⟩ => ⟨S_, .f32⟩
  | .hbm, ⟨36, _⟩ => ⟨S1000x1000, .f32⟩
  | .hbm, ⟨37, _⟩ => ⟨S1000x1000, .f32⟩
  | .hbm, ⟨38, _⟩ => ⟨S_, .f32⟩
  | .hbm, ⟨39, _⟩ => ⟨S1000, .f32⟩
  | .hbm, ⟨40, _⟩ => ⟨S1000x1, .f32⟩
  | .hbm, ⟨41, _⟩ => ⟨S1000x1000, .f32⟩
  | .hbm, ⟨42, _⟩ => ⟨S1000x1000, .f32⟩
  | .hbm, ⟨43, _⟩ => ⟨S_, .f32⟩
  | .hbm, ⟨44, _⟩ => ⟨S1000x1000, .f32⟩
  | .hbm, ⟨45, _⟩ => ⟨S1000x1000, .f32⟩
  | .hbm, ⟨46, _⟩ => ⟨S_, .f32⟩
  | .hbm, ⟨47, _⟩ => ⟨S1000x1000, .f32⟩
  | .hbm, ⟨48, _⟩ => ⟨S1000x1000, .i1⟩
  | .hbm, ⟨49, _⟩ => ⟨S_, .f32⟩
  | .hbm, ⟨50, _⟩ => ⟨S_, .f32⟩
  | .hbm, ⟨51, _⟩ => ⟨S1000x1000, .f32⟩
  | .hbm, ⟨52, _⟩ => ⟨S1000x1000, .f32⟩
  | .hbm, ⟨53, _⟩ => ⟨S_, .i32⟩
  | .hbm, ⟨54, _⟩ => ⟨S16384, .i32⟩
  | .hbm, ⟨55, _⟩ => ⟨S16384, .i1⟩
  | .hbm, ⟨56, _⟩ => ⟨S_, .i32⟩
  | .hbm, ⟨57, _⟩ => ⟨S16384, .i32⟩
  | .hbm, ⟨58, _⟩ => ⟨S16384, .i32⟩
  | .hbm, ⟨59, _⟩ => ⟨S16384, .i32⟩
  | .hbm, ⟨60, _⟩ => ⟨S16384x1, .i32⟩
  | .hbm, ⟨61, _⟩ => ⟨S16384x1000, .f32⟩
  | .hbm, ⟨62, _⟩ => ⟨S16384x1000, .f32⟩
  | .hbm, ⟨63, _⟩ => ⟨S_, .f32⟩
  | .hbm, ⟨64, _⟩ => ⟨S16384, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v15 : Ref sig .tc := ⟨.hbm, 37, rfl⟩
abbrev main_cst_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_cst_6 : Ref sig .tc := ⟨.hbm, 49, rfl⟩
abbrev main_call2_v0 : Ref sig .tc := ⟨.hbm, 50, rfl⟩
abbrev main_call2_v1 : Ref sig .tc := ⟨.hbm, 51, rfl⟩
abbrev main_v24 : Ref sig .tc := ⟨.hbm, 52, rfl⟩
abbrev main_c : Ref sig .tc := ⟨.hbm, 53, rfl⟩
abbrev main_v25 : Ref sig .tc := ⟨.hbm, 54, rfl⟩
abbrev main_v26 : Ref sig .tc := ⟨.hbm, 55, rfl⟩
abbrev main_c_7 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_8 : Ref sig .tc := ⟨.hbm, 63, rfl⟩
abbrev main_v33 : Ref sig .tc := ⟨.hbm, 64, rfl⟩
abbrev main_cst_9 : Ref sig .tc := ⟨.hbm, 65, rfl⟩
abbrev main_v34 : Ref sig .tc := ⟨.hbm, 66, rfl⟩
abbrev main_cst_10 : Ref sig .tc := ⟨.hbm, 67, rfl⟩
abbrev main_v35 : Ref sig .tc := ⟨.hbm, 68, rfl⟩
abbrev main_v36 : Ref sig .tc := ⟨.hbm, 69, rfl⟩

abbrev nD : Nat := 1
abbrev τ : Topo := Topo.v7x

variable {F : FTy → Type} [FloatOps F]

class Facts₀ : Prop where
  reducesTo_S16384x1000_S16384_d1 : S16384x1000.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  bcast_S1000_S1000x1_0 : S1000.BroadcastsInDim S1000x1 (![0] : Fin 1 → Fin S1000x1.rank)
  bcast_S1000_S1x1000_1 : S1000.BroadcastsInDim S1x1000 (![1] : Fin 1 → Fin S1x1000.rank)
  bcast_S1000x1_S1000x1000_0_1 : S1000x1.BroadcastsInDim S1000x1000 (![0, 1] : Fin 2 → Fin S1000x1000.rank)
  bcast_S1x1000_S1000x1000_0_1 : S1x1000.BroadcastsInDim S1000x1000 (![0, 1] : Fin 2 → Fin S1000x1000.rank)
  bcast_S_S1000x1000 : S_.BroadcastsInDim S1000x1000 (![] : Fin 0 → Fin S1000x1000.rank)
  reducesTo_S1000x1000_S1000_d1 : S1000x1000.ReducesTo [1] S1000
  reducesTo_S16384_S_d0 : S16384.ReducesTo [0] S_
  gather_S1000x1000_S16384x1_S16384x1000_1_0_n_n_0_1_11000_wf : GatherDims.WF S1000x1000 S16384x1 S16384x1000 [1] [0] [] [0] [] 1 ![1, 1000]

variable [Facts₀]

def gather_S1000x1000_S16384x1_S16384x1000_1_0_n_n_0_1_11000 : GatherDims S1000x1000 S16384x1 S16384x1000 where
  offsetDims := [1]
  collapsedSliceDims := [0]
  operandBatchingDims := []
  startIndicesBatchingDims := []
  startIndexMap := [0]
  indexVectorDim := 1
  sliceSizes := ![1, 1000]
  wf := gather_S1000x1000_S16384x1_S16384x1000_1_0_n_n_0_1_11000_wf

class Facts : Prop extends Facts₀ where

variable [Facts]
-- ==== Proof.Spec.lean ====
/-
  The loss both programs compute, as one function of the argument arrays.

  For a batch of 16384 rows of 1000 scores and one label per row, with a fixed table `tab` of label weights
  (row `c` of the table: the smoothed label distribution of true class `c`), the loss is minus the batch mean of
  `∑ j, tab[label_b, j] * logSoftmax(x_b) j`, where `logSoftmax row j = (row j - max row) - log (∑ k, exp (row k - max row))`.
  Everything is stated on the extended reals, with the operations the programs use; the row maximum is the fold of
  `max` from −∞ over the 1000 entries.
-/
import Idealize.ShloMosaic.PureOps.Ideal.Laws
import Idealize.ShloMosaic.Lib.ValueIdx

noncomputable section

open scoped BigOperators

namespace Cert.Spec

open Idealize.ShloMosaic Idealize.ShloMosaic.ValueIdx

/-- −∞, as the bit pattern both programs start their row maximum from. -/
abbrev negInf : EReal := Ideal.ofBits .f32 0xFF800000#32

/-- The batch size 16384, as the bit pattern both programs divide by. -/
abbrev batch : EReal := Ideal.ofBits .f32 0x46800000#32

/-- The largest entry of a row of 1000 scores: the fold of `max` from −∞. -/
def rowMax (row : Fin 1000 → EReal) : EReal := (Finset.univ : Finset (Fin 1000)).fold max negInf row

/-- A row's log-softmax at class `j`: `(x_j - max) - log (∑ k, exp (x_k - max))`. -/
def logSoftmax (row : Fin 1000 → EReal) (j : Fin 1000) : EReal :=
  (row j - rowMax row) - Ideal.log (∑ k : Fin 1000, Ideal.exp (row k - rowMax row))

/-- One sample's weighted log-likelihood `∑ j, w j * logSoftmax row j`, for a row `w` of label weights. -/
def rowTerm (w row : Fin 1000 → EReal) : EReal := ∑ j : Fin 1000, w j * logSoftmax row j

/-- The class a label word names: its signed value clamped into `[0, 999]`. -/
def cls (t : BitVec 32) : Fin 1000 := ⟨min t.toInt.toNat 999, by omega⟩

/-- The batch total `∑ b, rowTerm tab[cls t_b] x_b`. -/
def total (tab : (⟨2, ![1000, 1000]⟩ : Shape).Idx → EReal) (x : (⟨2, ![16384, 1000]⟩ : Shape).Idx → EReal)
    (t : (⟨1, ![16384]⟩ : Shape).Idx → BitVec 32) : EReal :=
  ∑ b : Fin 16384, rowTerm (fun j => tab (ix2 (cls (t (ix1 b))) j)) (fun j => x (ix2 b j))

/-- The loss: minus the batch mean, `-(total / 16384)`. -/
def loss (tab : (⟨2, ![1000, 1000]⟩ : Shape).Idx → EReal) (x : (⟨2, ![16384, 1000]⟩ : Shape).Idx → EReal)
    (t : (⟨1, ![16384]⟩ : Shape).Idx → BitVec 32) : EReal :=
  -(Ideal.div (total tab x t) batch)

end Cert.Spec

end
-- ==== Proof.SoftmaxReal.lean ====
/-
  The specification's row quantities are real numbers on rows of real numbers.

  For a row of 1000 reals the row maximum (the fold of `max` from −∞) is a real; each shifted entry is a real; the sum of
  the exponentials of the shifted entries is a positive real, so its logarithm is a real; hence every log-softmax value is
  a real, and a weighted sum of them with real weights is a real.
-/
import Mathlib.Data.EReal.Operations
import Mathlib.Data.Finset.Fold
import Mathlib.Algebra.Order.BigOperators.Group.Finset
import Mathlib.Analysis.SpecialFunctions.Exp
import proofs.«417628_j78237124264173_1_alg».proof.Proof.Spec

noncomputable section

open scoped BigOperators

namespace Cert.Spec

open Idealize.ShloMosaic

/-- The bit pattern the row maximum starts from is −∞. -/
theorem negInf_eq : negInf = ⊥ := by simp [negInf, Ideal.ofBits, Ideal.ieee]

/-- A finite sum of reals, taken in the extended reals, is the real sum. -/
theorem coe_sum {ι : Type} (s : Finset ι) (f : ι → ℝ) :
    ∑ k ∈ s, ((f k : ℝ) : EReal) = ((∑ k ∈ s, f k : ℝ) : EReal) := by
  classical
  refine Finset.induction_on s ?_ ?_
  · simp
  · intro a s ha ih
    rw [Finset.sum_insert ha, Finset.sum_insert ha, ih, EReal.coe_add]

/-- The fold of `max` from −∞ over a nonempty finite family of reals is a real. -/
theorem fold_max_real {ι : Type} (g : ι → ℝ) (s : Finset ι) (hs : s.Nonempty) :
    ∃ r : ℝ, s.fold max (⊥ : EReal) (fun k => ((g k : ℝ) : EReal)) = (r : EReal) := by
  classical
  revert hs
  refine Finset.induction_on s ?_ ?_
  · intro h; exact absurd h (by simp)
  · intro a s ha ih _
    rw [Finset.fold_insert ha]
    rcases s.eq_empty_or_nonempty with rfl | hne
    · exact ⟨g a, by simp⟩
    · obtain ⟨r, hr⟩ := ih hne
      exact ⟨max (g a) r, by rw [hr]; exact (EReal.coe_strictMono.monotone.map_max).symm⟩

/-- The row maximum of a row of reals is a real. -/
theorem rowMax_real (g : Fin 1000 → ℝ) : ∃ m : ℝ, rowMax (fun k => ((g k : ℝ) : EReal)) = (m : EReal) := by
  unfold rowMax
  rw [negInf_eq]
  exact fold_max_real g Finset.univ ⟨0, Finset.mem_univ _⟩

/-- The log-softmax of a row of reals, written out as a real. -/
theorem logSoftmax_coe (g : Fin 1000 → ℝ) (m : ℝ) (hm : rowMax (fun k => ((g k : ℝ) : EReal)) = (m : EReal)) (j : Fin 1000) :
    logSoftmax (fun k => ((g k : ℝ) : EReal)) j
      = (((g j - m) - Real.log (∑ k : Fin 1000, Real.exp (g k - m)) : ℝ) : EReal) := by
  have hpos : 0 < ∑ k : Fin 1000, Real.exp (g k - m) :=
    Finset.sum_pos (fun k _ => Real.exp_pos _) ⟨0, Finset.mem_univ _⟩
  unfold logSoftmax
  rw [hm]
  have hsum : ∑ k : Fin 1000, Ideal.exp (((g k : ℝ) : EReal) - (m : EReal))
      = ((∑ k : Fin 1000, Real.exp (g k - m) : ℝ) : EReal) := by
    rw [← coe_sum]
    refine Finset.sum_congr rfl fun k _ => ?_
    rw [← EReal.coe_sub, Ideal.exp_coe]
  rw [hsum, Ideal.log_coe, if_neg (not_le.2 hpos), ← EReal.coe_sub, ← EReal.coe_sub]

theorem logSoftmax_real (row : Fin 1000 → EReal) (h : ∀ k, ∃ r : ℝ, row k = (r : EReal)) (j : Fin 1000) :
    ∃ r : ℝ, logSoftmax row j = (r : EReal) := by
  choose g hg using h
  obtain rfl : row = fun k => ((g k : ℝ) : EReal) := funext hg
  obtain ⟨m, hm⟩ := rowMax_real g
  exact ⟨_, logSoftmax_coe g m hm j⟩

theorem rowTerm_real (w row : Fin 1000 → EReal) (hw : ∀ j, ∃ r : ℝ, w j = (r : EReal))
    (h : ∀ k, ∃ r : ℝ, row k = (r : EReal)) : ∃ r : ℝ, rowTerm w row = (r : EReal) := by
  choose u hu using hw
  choose l hl using logSoftmax_real row h
  refine ⟨∑ j : Fin 1000, u j * l j, ?_⟩
  unfold rowTerm
  rw [← coe_sum]
  refine Finset.sum_congr rfl fun j _ => ?_
  rw [hu j, hl j, EReal.coe_mul]

end Cert.Spec

end
-- ==== Proof.LibRowGather.lean ====
/-
  A row gather read at an element. jnp's `table[idx]` over a rank-2 table `[N, M]` with a vector of `n` row numbers
  lowers to a `stablehlo.gather` whose start indices are the `[n, 1]` column of row numbers, whose operand axis 0 is
  collapsed and start-indexed, whose operand axis 1 is kept whole as the result's offset axis 1, and whose index vector
  sits on axis 1 of the start indices. Result element `(p, q)` is the table at row "start index of `p`, read signed and
  clamped into `[0, N - 1]`" and column `q`.
-/
import Idealize.ShloMosaic.Lib.StableHlo.Predicate

namespace Cert.LibRowGather

open Idealize.ShloMosaic Idealize.ShloMosaic.StableHlo.Predicate

/-- The one entry of a list known to be a singleton. -/
theorem getElem_of_eq_singleton {α : Type} {L : List α} {x : α} (h : L = [x]) (k : Nat) (hk : k < L.length) : L[k] = x := by
  subst h
  have hk0 : k = 0 := by simpa using hk
  subst hk0
  rfl

section
variable {α : Type} {N M n w : Nat} (d : GatherDims ⟨2, ![N, M]⟩ ⟨2, ![n, 1]⟩ ⟨2, ![n, M]⟩)
  (hoff : d.offsetDims = [1]) (hcoll : d.collapsedSliceDims = [0]) (hob : d.operandBatchingDims = [])
  (hsim : d.startIndexMap = [0]) (hivd : d.indexVectorDim = 1)
include hoff hcoll hob hsim hivd

/-- The start-indices entry that result row `p` reads its row number from is entry `(p, 0)`. -/
theorem siIdx_row (p : Fin n) (q : Fin M) (c : Fin d.startIndexMap.length) : d.siIdx (ij p q) c = ixP p := by
  have hc : c.val = 0 := by
    have hlen : d.startIndexMap.length = 1 := by rw [hsim]; rfl
    have := c.isLt
    omega
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      show (⟨2, ![n, M]⟩ : Shape).kept d.offsetDims = [0]
      rw [hoff]; rfl
    rw [getElem_of_eq_singleton hbd]
    rfl
  | ⟨1, _⟩ =>
    unfold GatherDims.siIdx
    rw [dif_pos (by rw [hivd])]
    apply Fin.ext
    exact hc

/-- On the table's row axis the operand index is the clamped start index. -/
theorem operandIdx_row (idx : IVec ⟨2, ![n, 1]⟩ w) (p : Fin n) (q : Fin M) :
    (d.operandIdx (ij p q) idx 0).val = min (idx (ixP p)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [siIdx_row d hoff hcoll hob hsim hivd p q, hsl]
  rfl

/-- On the table's column axis the operand index is the result's column. -/
theorem operandIdx_col (idx : IVec ⟨2, ![n, 1]⟩ w) (p : Fin n) (q : Fin M) :
    (d.operandIdx (ij p q) idx 1).val = q.val := by
  have hb : (1 : Fin 2) ∉ d.operandBatchingDims := by rw [hob]; exact List.not_mem_nil
  have hm : (1 : Fin 2) ∉ d.startIndexMap := by rw [hsim]; simp
  have hk : (1 : Fin 2) ∈ d.sKept := by rw [GatherDims.mem_sKept, hcoll, hob]; simp
  simp only [GatherDims.operandIdx, GatherDims.batchCoord_eq_zero _ _ _ hb, Nat.add_zero, GatherDims.start, dif_neg hm,
    Nat.zero_add, GatherDims.offCoord, dif_pos hk]
  rw [getElem_of_eq_singleton hoff]
  rfl

/-- THE ROW GATHER at `(p, q)`: the table at the clamped row number of `p` and at column `q`. -/
theorem gather_rows (x : (⟨2, ![N, M]⟩ : Shape).Idx → α) (idx : IVec ⟨2, ![n, 1]⟩ w) (p : Fin n) (q : Fin M) (hN : 0 < N) :
    Host.gather d x idx (ij p q) = x (ij ⟨min (idx (ixP p)).toInt.toNat (N - 1), by omega⟩ q) := by
  unfold Host.gather
  congr 1
  funext a
  match a with
  | ⟨0, _⟩ => exact Fin.ext (operandIdx_row d hoff hcoll hob hsim hivd idx p q)
  | ⟨1, _⟩ => exact Fin.ext (operandIdx_col d hoff hcoll hob hsim hivd idx p q)

end

end Cert.LibRowGather
-- ==== Proof.LibRowReduce.lean ====
/-
  Row reductions of a matrix and the "keepdims" column they are carried in, read at coordinates.

  A matrix of shape `[a, b]` reduced along its second axis gives one number per row. Kept as a column `[a, 1]`
  (a shape cast of the `[a]` vector) and broadcast back over the `b` columns, entry `(r, c)` of the broadcast is
  the number of row `r`. At the extended reals the sum along a row is the finite sum of the row's entries, and the
  maximum along a row is the fold of `max` over them from the accumulator's value.
-/
import Idealize.ShloMosaic.Lib.ValueLayout
import Idealize.ShloMosaic.PureOps.Ideal.Laws

noncomputable section

namespace Cert.RowReduce

open Idealize.ShloMosaic Idealize.ShloMosaic.ValueIdx

variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(i, j)`, the column at row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Along the second axis of `[a, b]`, the source index over row `r` with coordinate `k` inserted is `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

variable {φ : FTy}

/-- A sum along the rows of a matrix of extended reals, at row `r`: the finite sum of that row's entries. -/
theorem rowSum_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the rows of a matrix of extended reals, at row `r`: the fold of `max` over that row's entries
    from the accumulator's value. -/
theorem rowMax_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (lift_row h r k))

end Cert.RowReduce

end
-- ==== Proof.RefValue.lean ====
/-
  The reference program's result is the specification's loss.

  The reference computes, per row of scores, the log-softmax: the row maximum (a fold of `max` from −∞, taken once
  more against −∞), the shifted entries, the logarithm of the sum of their exponentials. It builds the table of label
  weights, reads each label (a label that is not negative is used as it is), gathers the label's row of the table,
  multiplies by the log-softmax, sums over the classes and over the batch, divides by the batch size and negates.
  Each stage is read at an index and identified with the matching piece of the specification.
-/
import Mathlib.Data.EReal.Operations
import Mathlib.Data.Finset.Fold
import Mathlib.Algebra.BigOperators.Group.Finset.Basic
import Idealize.ShloMosaic.Lib.DynamicIndex
import proofs.«417628_j78237124264173_1_alg».proof.Proof.Spec
import proofs.«417628_j78237124264173_1_alg».proof.Proof.SoftmaxReal
import proofs.«417628_j78237124264173_1_alg».proof.Proof.LibRowGather
import proofs.«417628_j78237124264173_1_alg».proof.Proof.LibRowReduce
import proofs.«417628_j78237124264173_1_alg».proof.Proof.RefRead

noncomputable section

open scoped BigOperators

namespace Cert.RefValue

open Cert.ReferenceIdeal Cert.ReferenceIdeal.Gen Cert.ReferenceIdeal.ReadP
open Idealize.ShloMosaic Idealize.ShloMosaic.ValueIdx Idealize.ShloMosaic.StableHlo.Predicate

/-! ## The log-softmax -/

/-- The row maximum the reference reduces, at row `b`: the fold of `max` from −∞ over the row's entries. -/
theorem rowMax_eq (x : S16384x1000.Idx → EReal) (b : Fin 16384) :
    val_main_call0_v0 (F := Ideal) x (ix1 b) = Cert.Spec.rowMax (fun j => x (ix2 b j)) := by
  unfold val_main_call0_v0
  have h : S16384x1000.Reduces [1] S16384 := by decide
  rw [Host.reduce_eq_fold_single (FloatOps.maximumf (F := Ideal) (φ := .f32)) x _ reducesTo_S16384x1000_S16384_d1 h h_S_]
  have hf : (x ∘ h.lift (ix1 b)) = fun k : Fin 1000 => x (ix2 b k) :=
    funext fun k => congrArg x (Cert.RowReduce.lift_row h b k)
  rw [hf]
  rfl

/-- The row maximum broadcast back over the row: taken once more against −∞ it is unchanged. -/
theorem v4_eq (x : S16384x1000.Idx → EReal) (b : Fin 16384) (j : Fin 1000) :
    val_main_call0_v4 (F := Ideal) x (ix2 b j) = Cert.Spec.rowMax (fun j => x (ix2 b j)) := by
  rw [val_main_call0_v4_apply, val_main_call0_v3_apply, val_main_call0_v2_apply, val_main_call0_v1_apply,
    val_main_call0_cst_0_apply]
  have hi : idx_main_call0_v3 (idx_main_call0_v4 (ix2 b j)) = ix1 b :=
    funext fun a => Fin.ext (by match a with | ⟨0, _⟩ => rfl)
  rw [hi, rowMax_eq, Ideal.maximumf_def, Ideal.ofBits_def]
  show max Cert.Spec.negInf _ = _
  rw [Cert.Spec.negInf_eq]
  exact max_bot_left _

/-- The shifted entry. -/
theorem v5_eq (x : S16384x1000.Idx → EReal) (b : Fin 16384) (j : Fin 1000) :
    val_main_call0_v5 (F := Ideal) x (ix2 b j) = x (ix2 b j) - Cert.Spec.rowMax (fun j => x (ix2 b j)) := by
  rw [val_main_call0_v5_apply, v4_eq, Ideal.subf_def]

/-- The sum of the exponentials of a row's shifted entries. -/
theorem v7_eq (x : S16384x1000.Idx → EReal) (b : Fin 16384) :
    val_main_call0_v7 (F := Ideal) x (ix1 b)
      = ∑ k : Fin 1000, Ideal.exp (x (ix2 b k) - Cert.Spec.rowMax (fun j => x (ix2 b j))) := by
  rw [val_main_call0_v7_apply, val_main_call0_cst_1_apply, Ideal.ofBits_def, Ideal.ofBits_zero_f32, zero_add]
  refine Finset.sum_congr rfl fun k _ => ?_
  have hi : idx_main_call0_v7 (ix1 b) k = ix2 b k :=
    funext fun a => Fin.ext (by match a with | ⟨0, _⟩ => rfl | ⟨1, _⟩ => rfl)
  rw [hi, val_main_call0_v6_apply, v5_eq, Ideal.hostUnary_exp_def]

/-- The logarithm of that sum, broadcast back over the row. -/
theorem v10_eq (x : S16384x1000.Idx → EReal) (b : Fin 16384) (j : Fin 1000) :
    val_main_call0_v10 (F := Ideal) x (ix2 b j)
      = Ideal.log (∑ k : Fin 1000, Ideal.exp (x (ix2 b k) - Cert.Spec.rowMax (fun j => x (ix2 b j)))) := by
  rw [val_main_call0_v10_apply, val_main_call0_v9_apply, val_main_call0_v8_apply]
  have hi : idx_main_call0_v8 (idx_main_call0_v10 (ix2 b j)) = ix1 b :=
    funext fun a => Fin.ext (by match a with | ⟨0, _⟩ => rfl)
  rw [hi, v7_eq, Ideal.hostUnary_log_def]

/-- The reference's log-softmax stage at `(b, j)` is the specification's log-softmax of row `b` at class `j`. -/
theorem logSoftmax_eq (x : S16384x1000.Idx → EReal) (b : Fin 16384) (j : Fin 1000) :
    val_main_v0 (F := Ideal) x (ix2 b j) = Cert.Spec.logSoftmax (fun j => x (ix2 b j)) j := by
  rw [val_main_v0_apply, v5_eq, v10_eq, Ideal.subf_def]
  rfl

/-! ## The labels and the gather of the table's rows -/

/-- The label the reference gathers with, at row `b`: a label that is not negative is used as it is. -/
theorem v30_eq (t : S16384.Idx → BitVec 32) (ht : ∀ b, 0 ≤ (t b).toInt) (b : Fin 16384) :
    val_main_v30 (F := Ideal) t (ixP b) = t (ix1 b) := by
  rw [val_main_v30_apply]
  have hi : idx_main_v30 (ixP b) = ix1 b := funext fun a => Fin.ext (by match a with | ⟨0, _⟩ => rfl)
  rw [hi, val_main_v29_apply, val_main_v26_apply, val_main_v25_apply, val_main_c_apply]
  have hlt : IntOp.cmpi .slt (t (ix1 b)) 0#32 = 0#1 := by
    have hs : (t (ix1 b)).slt 0#32 = false := by
      simp only [BitVec.slt, BitVec.toInt_zero, decide_eq_false_iff_not, Int.not_lt]
      exact ht _
    show BitVec.ofBool ((t (ix1 b)).slt 0#32) = 0#1
    rw [hs]
    rfl
  rw [hlt, select_zero]

/-- The gathered row: at `(b, j)` the table at the row the label of `b` names and at column `j`. -/
theorem v31_eq (t : S16384.Idx → BitVec 32) (ht : ∀ b, 0 ≤ (t b).toInt) (b : Fin 16384) (j : Fin 1000) :
    val_main_v31 (F := Ideal) t (ix2 b j)
      = val_main_v24 (F := Ideal) (ix2 (Cert.Spec.cls (t (ix1 b))) j) := by
  unfold val_main_v31
  have hij : (ix2 b j : S16384x1000.Idx) = ij b j :=
    funext fun a => by match a with | ⟨0, _⟩ => rfl | ⟨1, _⟩ => rfl
  rw [hij, Cert.LibRowGather.gather_rows _ rfl rfl rfl rfl rfl (val_main_v24 (F := Ideal)) (val_main_v30 (F := Ideal) t) b j
    (by decide)]
  refine congrArg (val_main_v24 (F := Ideal)) (funext fun a => ?_)
  match a with
  | ⟨0, _⟩ =>
    apply Fin.ext
    show min (val_main_v30 (F := Ideal) t (ixP b)).toInt.toNat (1000 - 1) = min (t (ix1 b)).toInt.toNat 999
    rw [v30_eq t ht b]
  | ⟨1, _⟩ => rfl

/-! ## The sums, the mean and the sign -/

/-- One row's weighted sum: the specification's row term for the label's row of the table and the row of scores. -/
theorem v33_eq (x : S16384x1000.Idx → EReal) (t : S16384.Idx → BitVec 32) (ht : ∀ b, 0 ≤ (t b).toInt) (b : Fin 16384) :
    val_main_v33 (F := Ideal) x t (ix1 b)
      = Cert.Spec.rowTerm (fun j => val_main_v24 (F := Ideal) (ix2 (Cert.Spec.cls (t (ix1 b))) j)) (fun j => x (ix2 b j)) := by
  rw [val_main_v33_apply, val_main_cst_8_apply, Ideal.ofBits_def, Ideal.ofBits_zero_f32, zero_add]
  unfold Cert.Spec.rowTerm
  refine Finset.sum_congr rfl fun k _ => ?_
  have hi : idx_main_v33 (ix1 b) k = ix2 b k :=
    funext fun a => Fin.ext (by match a with | ⟨0, _⟩ => rfl | ⟨1, _⟩ => rfl)
  rw [hi, val_main_v32_apply, v31_eq t ht, logSoftmax_eq, Ideal.mulf_def]

/-- The rank-1 indices of the batch are the numbers below 16384. -/
def batchEquiv : Fin 16384 ≃ S16384.Idx where
  toFun := ix1
  invFun := fun j => j 0
  left_inv := fun _ => rfl
  right_inv := fun j => (eq_ix1 j).symm

/-- The sum over the batch is the specification's total. -/
theorem total_eq (x : S16384x1000.Idx → EReal) (t : S16384.Idx → BitVec 32) (ht : ∀ b, 0 ≤ (t b).toInt) (i : S_.Idx) :
    val_main_v34 (F := Ideal) x t i = Cert.Spec.total (val_main_v24 (F := Ideal)) x t := by
  rw [val_main_v34_apply, val_main_cst_9_apply, Ideal.ofBits_def, Ideal.ofBits_zero_f32, zero_add]
  unfold Cert.Spec.total
  refine (Equiv.sum_comp batchEquiv _).symm.trans ?_
  exact Finset.sum_congr rfl fun b _ => v33_eq x t ht b

/-- THE REFERENCE'S RESULT: minus the batch mean of the row terms, the specification's loss of the table of label
    weights and the two arguments (the labels not negative). -/
theorem ref_loss (x : S16384x1000.Idx → EReal) (t : S16384.Idx → BitVec 32) (ht : ∀ b, 0 ≤ (t b).toInt) :
    val_main_v36 (F := Ideal) x t = fun _ => Cert.Spec.loss (val_main_v24 (F := Ideal)) x t := by
  funext i
  rw [val_main_v36_apply, val_main_v35_apply, total_eq x t ht, val_main_cst_10_apply, Ideal.hostNegf_def, Ideal.negf_def,
    Ideal.hostDivf_def, Ideal.ofBits_def]
  rfl

end Cert.RefValue

end
-- ==== Proof.KernelPieces.lean ====
/-
  What one grid point of the kernel leaves behind, as values. The body keeps a one-element accumulator in a
  scratch buffer. At the first point it stores zero there and then stores "what it just read back plus this block's
  sum"; at every later point it stores "what the point before left plus this block's sum"; at the last point it also
  copies the accumulator, as just stored, into the output block. Each of these is the body's arithmetic `k0_pay2`
  applied to the point's three input blocks and the accumulator's previous contents (zero, `k0_pay1`, at the first
  point): a store through the whole one-element rectangle leaves its payload, and a load through it reads it back.
-/
import proofs.«417628_j78237124264173_1_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- The offsets of the whole-buffer rectangle are all zero. -/
theorem off0 : (![0, 0] : Fin 2 → Nat) = fun _ => 0 := by funext a; fin_cases a <;> rfl

/-- First point: the accumulator ends at the body's arithmetic over a zeroed accumulator. -/
theorem scratch_first (c : Dev nD) (i : grid0.Coords) (arg1 : Memref sig .tc .vmem S512x1000 .f32) (harg1 : arg1.IsWhole) (arg2 : Memref sig .tc .vmem S512x1 .i32) (harg2 : arg2.IsWhole) (arg3 : Memref sig .tc .vmem S1000x1000 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S512x1000 .f32) (x1 : Vec F S512x1 .i32) (x2 : Vec F S1000x1000 .f32) :
    sout0_A_0 (F := F) c i arg1 harg1 arg2 harg2 arg3 harg3 arg4 harg4 arg5 harg5 hc0 hc1 x0 x1 x2 = k0_pay2 x0 x1 x2 (k0_pay1 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) off0]
  simp only [View.readAt_eq_ld, harg1.read_unread, harg2.read_unread, harg3.read_unread,
    View.ld_unit_zero (S := S512x1000) off0, View.ld_unit_zero (S := S512x1) off0, View.ld_unit_zero (S := S1000x1000) off0,
    View.readCov_unit_zero (S := S1x1) _ off0]

/-- A middle point: the accumulator ends at the body's arithmetic over what the point before left. -/
theorem scratch_mid (c : Dev nD) (i : grid0.Coords) (arg1 : Memref sig .tc .vmem S512x1000 .f32) (harg1 : arg1.IsWhole) (arg2 : Memref sig .tc .vmem S512x1 .i32) (harg2 : arg2.IsWhole) (arg3 : Memref sig .tc .vmem S1000x1000 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S512x1000 .f32) (x1 : Vec F S512x1 .i32) (x2 : Vec F S1000x1000 .f32) (xs0 : Vec F S1x1 .f32) :
    sout0_B_0 (F := F) c i arg1 harg1 arg2 harg2 arg3 harg3 arg4 harg4 arg5 harg5 hc0 hc1 x0 x1 x2 xs0 = k0_pay2 x0 x1 x2 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero (S := S1x1) off0]
  simp only [View.readAt_eq_ld, harg1.read_unread, harg2.read_unread, harg3.read_unread, harg5.read_unread,
    View.ld_unit_zero (S := S512x1000) off0, View.ld_unit_zero (S := S512x1) off0, View.ld_unit_zero (S := S1000x1000) off0,
    View.ld_unit_zero (S := S1x1) off0]

/-- The last point: the accumulator likewise, -/
theorem scratch_last (c : Dev nD) (i : grid0.Coords) (arg1 : Memref sig .tc .vmem S512x1000 .f32) (harg1 : arg1.IsWhole) (arg2 : Memref sig .tc .vmem S512x1 .i32) (harg2 : arg2.IsWhole) (arg3 : Memref sig .tc .vmem S1000x1000 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S512x1000 .f32) (x1 : Vec F S512x1 .i32) (x2 : Vec F S1000x1000 .f32) (xs0 : Vec F S1x1 .f32) :
    sout0_C_0 (F := F) c i arg1 harg1 arg2 harg2 arg3 harg3 arg4 harg4 arg5 harg5 hc0 hc1 x0 x1 x2 xs0 = k0_pay2 x0 x1 x2 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero (S := S1x1) off0]
  simp only [View.readAt_eq_ld, harg1.read_unread, harg2.read_unread, harg3.read_unread, harg5.read_unread,
    View.ld_unit_zero (S := S512x1000) off0, View.ld_unit_zero (S := S512x1) off0, View.ld_unit_zero (S := S1000x1000) off0,
    View.ld_unit_zero (S := S1x1) off0]

/-- and the output block holds the accumulator as just stored. -/
theorem out_last (c : Dev nD) (i : grid0.Coords) (arg1 : Memref sig .tc .vmem S512x1000 .f32) (harg1 : arg1.IsWhole) (arg2 : Memref sig .tc .vmem S512x1 .i32) (harg2 : arg2.IsWhole) (arg3 : Memref sig .tc .vmem S1000x1000 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S512x1000 .f32) (x1 : Vec F S512x1 .i32) (x2 : Vec F S1000x1000 .f32) (xs0 : Vec F S1x1 .f32) :
    out0_C_3 (F := F) c i arg1 harg1 arg2 harg2 arg3 harg3 arg4 harg4 arg5 harg5 hc0 hc1 x0 x1 x2 xs0 = k0_pay2 x0 x1 x2 xs0 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero (S := S1x1) off0]
  simp only [View.readAt_eq_ld, harg1.read_unread, harg2.read_unread, harg3.read_unread, harg5.read_unread,
    View.ld_unit_zero (S := S512x1000) off0, View.ld_unit_zero (S := S512x1) off0, View.ld_unit_zero (S := S1000x1000) off0,
    View.ld_unit_zero (S := S1x1) off0, View.readCov_unit_zero (S := S1x1) _ off0]

end Cert.KernelIdeal.Pieces

end
-- ==== Proof.KernelBlocks.lean ====
/-
  The pipeline's blocks in array coordinates, and the host lines around the region.

  At grid point `t` (of 32) the kernel sees rows `512 t … 512 t + 511` of the logits, the same rows of the labels
  (carried as a one-column matrix, a reshape of the label vector) and the whole table of label weights. After the
  region the one-element output is reshaped to a scalar and divided by the batch size.
-/
import proofs.«417628_j78237124264173_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Blocks

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]
variable (m : (ℓ : Loc nD τ sig) → Buf (Elt F) ℓ)

/-- Windows 0 and 1 walk the rows block by block; window 2 and the output stay at block (0, 0). -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Row `r` of block `t` is row `512 t + r` of the batch. -/
theorem lt_rows (t : Fin cfg0.N) (r : Fin 512) : 512 * t.val + r.val < 16384 := by
  have := t.isLt; have h : cfg0.N = 32 := N_0; omega

/-- The logits block at point `t`, entry `(r, j)`: the logits at `(512 t + r, j)`. -/
theorem xblk_apply (c : Dev nD) (t : Fin cfg0.N) (r : Fin 512) (j : Fin 1000) :
    (iblk m c 0 t : Vec F S512x1000 .f32) (ix2 r j) = (V m c main_arg0 : Vec F S16384x1000 .f32) (ix2 ⟨512 * t.val + r.val, lt_rows t r⟩ j) := by
  show V m c main_arg0 (((cfg0.win 0).blk t).view.emb (ix2 r j)) = V m c main_arg0 (ix2 ⟨512 * t.val + r.val, lt_rows t r⟩ j)
  refine congrArg _ (funext fun a => Fin.ext ?_)
  match a with
  | ⟨0, _⟩ =>
    show win0_0.index t (0 : Fin 2) * 512 + 1 * r.val = 512 * t.val + r.val
    rw [(idx0 t).1]; omega
  | ⟨1, _⟩ =>
    show win0_0.index t (1 : Fin 2) * 1000 + 1 * j.val = j.val
    rw [(idx0 t).2]; omega

/-- The labels block at point `t`, entry `(r, 0)`: the label column at row `512 t + r`. -/
theorem tblk_apply (c : Dev nD) (t : Fin cfg0.N) (r : Fin 512) (u : Fin 1) :
    (iblk m c 1 t : Vec F S512x1 .i32) (ix2 r u) = (V m c main_v24 : Vec F S16384x1 .i32) (ix2 ⟨512 * t.val + r.val, lt_rows t r⟩ u) := by
  show V m c main_v24 (((cfg0.win 1).blk t).view.emb (ix2 r u)) = V m c main_v24 (ix2 ⟨512 * t.val + r.val, lt_rows t r⟩ u)
  refine congrArg _ (funext fun a => Fin.ext ?_)
  match a with
  | ⟨0, _⟩ =>
    show win0_1.index t (0 : Fin 2) * 512 + 1 * r.val = 512 * t.val + r.val
    rw [(idx1 t).1]; omega
  | ⟨1, _⟩ =>
    show win0_1.index t (1 : Fin 2) * 1 + 1 * u.val = u.val
    rw [(idx1 t).2]; omega

/-- The table's block at every point is the whole table. -/
theorem mblk_apply (c : Dev nD) (t : Fin cfg0.N) (k j : Fin 1000) :
    (iblk m c 2 t : Vec F S1000x1000 .f32) (ix2 k j) = (V m c main_v23 : Vec F S1000x1000 .f32) (ix2 k j) := by
  show V m c main_v23 (((cfg0.win 2).blk t).view.emb (ix2 k j)) = V m c main_v23 (ix2 k j)
  refine congrArg _ (funext fun a => Fin.ext ?_)
  match a with
  | ⟨0, _⟩ =>
    show win0_2.index t (0 : Fin 2) * 1000 + 1 * k.val = k.val
    rw [(idx2 t).1]; omega
  | ⟨1, _⟩ =>
    show win0_2.index t (1 : Fin 2) * 1000 + 1 * j.val = j.val
    rw [(idx2 t).2]; omega

/-- The label column the region finds is the label vector reshaped to one column. -/
theorem targets_col (c : Dev nD) :
    (V m c main_v24 : Vec F S16384x1 .i32) = shapeCast S16384x1 (m ((c : Thread nD τ).loc main_arg1)) shapeCasts_S16384_S16384x1 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The label column at row `b` is label `b`. -/
theorem targets_col_apply (c : Dev nD) (b : Fin 16384) (u : Fin 1) :
    (V m c main_v24 : Vec F S16384x1 .i32) (ix2 b u) = m ((c : Thread nD τ).loc main_arg1) (ix1 b) := by
  rw [targets_col]
  refine shapeCast_apply _ shapeCasts_S16384_S16384x1 _ _ ?_
  have hu : u.val = 0 := by omega
  rw [Shape.rowMajor_val_two, Shape.rowMajor_val_one]
  show b.val = b.val * 1 + u.val
  omega

/-- After the region: the result is the output array's one element, reshaped to a scalar, over the batch size. -/
theorem result_eq (c : Dev nD) :
    Pipeline.afterTail₀ cfgs (dats m) 0 (V0 m) [hostOps1] c main_v27
      = Host.divf (shapeCast S_ ((dats m 0 c).arrAt 3 cfg0.N) shapeCasts_S1x1_S_) (constant S_ .f32 0x46800000#32) := by
  unfold Pipeline.afterTail₀
  show StableHlo.after hostOps1 _ (Proc.devRef .tc main_v27) = _
  after_results
  show Host.divf (shapeCast S_ (Pipeline.withArrays (cfgs 0).spec c (V0 m c) (fun w => (dats m 0 c).arrAt w (cfgs 0).N) (Proc.devRef .tc main_v25)) shapeCasts_S1x1_S_) (constant S_ .f32 0x46800000#32) = _
  rw [Pipeline.withArrays_arr spec0 launch0.win.arr_inj c _ _ 3]

end Cert.KernelIdeal.Blocks

end
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.LibMaskSum.lean ====
/-
  A 0/1-masked contraction over the extended reals is a sum over the mask's support.

  On the extended reals `x * 0 = 0` and `x * 1 = x` for EVERY `x`, the infinities included (the extended reals are a
  commutative monoid with zero), so a mask factor `if g i = k then 1 else 0` inside a sum keeps exactly the terms with
  `g i = k`, with no finiteness side condition. When the index set is `H` consecutive blocks of `B` and `g` is
  "which block" (`c / B`), the support of block `k` is the `B` positions `B * k + b`, and the sum over it is a sum
  over `Fin B`. The one-hot expansion `∑ h, t h * [q = h] = t q` is the same fact read the other way.
-/
import Mathlib.Data.EReal.Inv
import Mathlib.Algebra.BigOperators.Group.Finset.Basic
import Mathlib.Algebra.BigOperators.Group.Finset.Piecewise

open scoped BigOperators

namespace Cert.Lib

/-- A 0/1 mask factor on the extended reals: `(if c then 1 else 0) * a` is `a` where the condition holds and `0`
    where it does not, for every `a` (infinite ones too). -/
theorem mask_mul (c : Prop) [Decidable c] (a : EReal) : (if c then (1 : EReal) else 0) * a = if c then a else 0 := by
  split_ifs <;> simp

/-- The same with the mask on the right. -/
theorem mul_mask (c : Prop) [Decidable c] (a : EReal) : a * (if c then (1 : EReal) else 0) = if c then a else 0 := by
  split_ifs <;> simp

/-- A masked term of a contraction: `p * ((if c then 1 else 0) * a)` is `p * a` where the condition holds and `0`
    where it does not, for every `p`, `a` on the extended reals. -/
theorem mul_mask_mul (c : Prop) [Decidable c] (p a : EReal) :
    p * ((if c then (1 : EReal) else 0) * a) = if c then p * a else 0 := by
  split_ifs <;> simp

/-- A 0/1-masked contraction is the sum over the mask's support: for finite `ι`, any `g : ι → κ`, `k : κ` and any
    `p a : ι → EReal`, `∑ i, p i * ((if g i = k then 1 else 0) * a i) = ∑ i ∈ univ.filter (g · = k), p i * a i`. -/
theorem sum_mul_mask_mul {ι κ : Type*} [Fintype ι] [DecidableEq κ] (g : ι → κ) (k : κ) (p a : ι → EReal) :
    ∑ i, p i * ((if g i = k then (1 : EReal) else 0) * a i)
      = ∑ i ∈ Finset.univ.filter (fun i => g i = k), p i * a i := by
  rw [Finset.sum_filter]
  exact Finset.sum_congr rfl fun i _ => mul_mask_mul _ _ _

/-- The same for a mask stated by any decidable predicate `q` on the index. -/
theorem sum_mul_maskP_mul {ι : Type*} [Fintype ι] (q : ι → Prop) [DecidablePred q] (p a : ι → EReal) :
    ∑ i, p i * ((if q i then (1 : EReal) else 0) * a i) = ∑ i ∈ Finset.univ.filter q, p i * a i := by
  rw [Finset.sum_filter]
  exact Finset.sum_congr rfl fun i _ => mul_mask_mul _ _ _

/-- A masked sum with the mask as the only other factor: `∑ i, (if q i then 1 else 0) * a i` is the sum of `a` over
    the indices where `q` holds. -/
theorem sum_maskP_mul {ι : Type*} [Fintype ι] (q : ι → Prop) [DecidablePred q] (a : ι → EReal) :
    ∑ i, (if q i then (1 : EReal) else 0) * a i = ∑ i ∈ Finset.univ.filter q, a i := by
  rw [Finset.sum_filter]
  exact Finset.sum_congr rfl fun i _ => mask_mul _ _

/-- Position `B * k + b` of block `k < H` at offset `b < B` lies below `H * B`. -/
theorem block_pos_lt {n H B : Nat} (hn : n = H * B) (k : Fin H) (b : Fin B) : B * k.val + b.val < n := by
  subst hn
  calc B * k.val + b.val < B * k.val + B := Nat.add_lt_add_left b.isLt _
    _ = B * (k.val + 1) := (Nat.mul_succ _ _).symm
    _ ≤ B * H := Nat.mul_le_mul_left B k.isLt
    _ = H * B := Nat.mul_comm _ _

/-- The sum over block `k` of an index set of `H` consecutive blocks of `B`: the indices `c : Fin n`
    (`n = H * B`) with `c / B = k` are the `B` positions `B * k + b`, so the filtered sum is a sum over `Fin B`.
    For any additive commutative monoid. -/
theorem sum_filter_block {α : Type*} [AddCommMonoid α] {n H B : Nat} (hn : n = H * B) (k : Fin H) (f : Fin n → α) :
    ∑ c ∈ Finset.univ.filter (fun c : Fin n => c.val / B = k.val), f c
      = ∑ b : Fin B, f ⟨B * k.val + b.val, block_pos_lt hn k b⟩ := by
  symm
  refine Finset.sum_bij (fun b _ => (⟨B * k.val + b.val, block_pos_lt hn k b⟩ : Fin n)) ?_ ?_ ?_ ?_
  · intro b _
    have hB : 0 < B := Nat.lt_of_le_of_lt (Nat.zero_le _) b.isLt
    simp only [Finset.mem_filter, Finset.mem_univ, true_and]
    rw [Nat.mul_add_div hB, Nat.div_eq_of_lt b.isLt, Nat.add_zero]
  · intro b₁ _ b₂ _ h
    have := congrArg Fin.val h
    simp only at this
    exact Fin.ext (by omega)
  · intro c hc
    simp only [Finset.mem_filter, Finset.mem_univ, true_and] at hc
    have hB : 0 < B := Nat.pos_of_ne_zero (by
      rintro rfl
      have h1 : c.val < H * 0 := lt_of_lt_of_eq c.isLt hn
      exact absurd h1 (by simp))
    refine ⟨⟨c.val % B, Nat.mod_lt _ hB⟩, Finset.mem_univ _, ?_⟩
    apply Fin.ext
    show B * k.val + c.val % B = c.val
    rw [← hc]; exact Nat.div_add_mod _ _
  · intro b _; rfl

/-- The block form of the masked contraction: over `Fin n` with `n = H * B` and the mask "`c` lies in block `k`"
    (`c / B = k`), `∑ c, p c * ((if c / B = k then 1 else 0) * a c) = ∑ b : Fin B, p (B·k + b) * a (B·k + b)`. -/
theorem sum_mul_blockmask_mul {n H B : Nat} (hn : n = H * B) (k : Fin H) (p a : Fin n → EReal) :
    ∑ c : Fin n, p c * ((if c.val / B = k.val then (1 : EReal) else 0) * a c)
      = ∑ b : Fin B, p ⟨B * k.val + b.val, block_pos_lt hn k b⟩ * a ⟨B * k.val + b.val, block_pos_lt hn k b⟩ := by
  rw [sum_mul_maskP_mul (fun c : Fin n => c.val / B = k.val) p a]
  exact sum_filter_block hn k fun c => p c * a c

/-- The one-hot expansion: `∑ h : Fin H, t h * (if j = h then 1 else 0) = t j` on the extended reals. -/
theorem sum_mul_onehot {H : Nat} (t : Fin H → EReal) (j : Fin H) :
    ∑ h : Fin H, t h * (if j = h then (1 : EReal) else 0) = t j := by
  simp only [mul_mask]
  rw [Finset.sum_ite_eq Finset.univ j t, if_pos (Finset.mem_univ _)]

/-- The one-hot expansion with the selected position a natural number `q < H` compared with the summation index's
    value: `∑ h : Fin H, t h * (if q = h then 1 else 0) = t q`. With `q = c / B` for `c < H * B` this is the block
    number of `c`. -/
theorem sum_mul_onehot_val {H : Nat} (t : Fin H → EReal) (q : Nat) (hq : q < H) :
    ∑ h : Fin H, t h * (if q = h.val then (1 : EReal) else 0) = t ⟨q, hq⟩ := by
  rw [← sum_mul_onehot t ⟨q, hq⟩]
  refine Finset.sum_congr rfl fun h _ => ?_
  have : (q = h.val) ↔ ((⟨q, hq⟩ : Fin H) = h) := ⟨fun e => Fin.ext e, fun e => congrArg Fin.val e⟩
  simp only [this]

/-- The block number of a position below `H * B` is below `H`. -/
theorem block_lt {n H B : Nat} (hn : n = H * B) (c : Fin n) : c.val / B < H := by
  have hc : c.val < H * B := lt_of_lt_of_eq c.isLt hn
  exact Nat.div_lt_of_lt_mul (lt_of_lt_of_eq hc (Nat.mul_comm H B))

/-- The one-hot expansion at a block number: for `c : Fin n`, `n = H * B`,
    `∑ h : Fin H, t h * (if c / B = h then 1 else 0) = t (c / B)`. -/
theorem sum_mul_onehot_block {n H B : Nat} (hn : n = H * B) (t : Fin H → EReal) (c : Fin n) :
    ∑ h : Fin H, t h * (if c.val / B = h.val then (1 : EReal) else 0) = t ⟨c.val / B, block_lt hn c⟩ :=
  sum_mul_onehot_val t _ _

end Cert.Lib
-- ==== Proof.LibBlockSum.lean ====
/-
  A sum over `H` consecutive blocks of `B` positions is the sum over all `H * B` positions; and a small natural
  number's 32-bit word is the word whose signed reading is that number.
-/
import proofs.«417628_j78237124264173_1_alg».proof.Proof.LibMaskSum
import Idealize.ShloMosaic.Lib.StableHlo.Predicate
import Mathlib.Algebra.BigOperators.Fin

open scoped BigOperators

namespace Cert.Lib

open Idealize.ShloMosaic

/-- Summing block by block: over `Fin n` with `n = H * B`, the double sum over the block `k` and the offset `b` of
    `f (B * k + b)` is the sum of `f` over every position. For any additive commutative monoid. -/
theorem sum_blocks {α : Type*} [AddCommMonoid α] {n H B : Nat} (hn : n = H * B) (f : Fin n → α) :
    ∑ k : Fin H, ∑ b : Fin B, f ⟨B * k.val + b.val, block_pos_lt hn k b⟩ = ∑ c : Fin n, f c := by
  subst hn
  rw [← Fintype.sum_prod_type (f := fun p : Fin H × Fin B => f ⟨B * p.1.val + p.2.val, block_pos_lt rfl p.1 p.2⟩)]
  refine Fintype.sum_equiv finProdFinEquiv _ _ fun p => congrArg f (Fin.ext ?_)
  show B * p.1.val + p.2.val = (finProdFinEquiv p).val
  rw [finProdFinEquiv_apply_val]
  exact Nat.add_comm _ _

/-- A 32-bit word is the word of a natural number `g < 2 ^ 31` exactly when its signed reading is `g`. -/
theorem ofNat_eq_iff_toInt (g : Nat) (hg : g < 2 ^ 31) (w : BitVec 32) :
    BitVec.ofNat 32 g = w ↔ w.toInt = (g : Int) := by
  constructor
  · rintro rfl
    exact StableHlo.Predicate.toInt_ofNat_small g hg
  · intro h
    apply BitVec.eq_of_toInt_eq
    rw [h, StableHlo.Predicate.toInt_ofNat_small g hg]

end Cert.Lib
-- ==== Proof.KernelPayload.lean ====
/-
  The kernel body's arithmetic, read at its one output index.

  For a block of 512 rows of 1000 scores, the 512 label words (a column), the 1000 × 1000 table of label weights and
  the old accumulator, the body's value is the accumulator plus `∑ r, (0 - rowTerm (table row of label r) (score row r))`:
  the row maximum kept as a column and broadcast back, the subtraction, the exponential, the row sum, its logarithm
  and the second subtraction are the log-softmax of the row; the 0/1 rows "column index = label" times the table are
  the table's row at the label's class; the product with the log-softmax summed along the row is `rowTerm`; the sign
  change and the sum over the 512 rows follow. Every step is read at explicit coordinates.
-/
import proofs.«417628_j78237124264173_1_alg».proof.Proof.Spec
import proofs.«417628_j78237124264173_1_alg».proof.Proof.LibRowReduce
import proofs.«417628_j78237124264173_1_alg».proof.Proof.LibPlainDot
import proofs.«417628_j78237124264173_1_alg».proof.Proof.LibMaskSum
import proofs.«417628_j78237124264173_1_alg».proof.Proof.LibBlockSum
import proofs.«417628_j78237124264173_1_alg».proof.Proof.Gen.KernelIdeal.Skeleton
import Idealize.ShloMosaic.Lib.ValueLayout

noncomputable section

open scoped BigOperators

namespace Cert.KernelPayload

open Idealize.ShloMosaic Idealize.ShloMosaic.ValueIdx Cert.KernelIdeal

/-! ## The log-softmax of a row -/

/-- The row maximum, kept as a column and broadcast back over the columns, at `(r, j)`: the maximum of row `r`. -/
theorem rowMaxB_apply (x : FVec Ideal S512x1000 .f32) (hr : S512x1000.Reduces [1] S512) (hc : S512.ShapeCasts S512x1)
    (hb : S512x1.Broadcasts S512x1000) (hφ : FKind.Formats .f32)
    (hacc : (0xFF800000#32 : BitVec (FTy.bits .f32)) = FKind.maximumf.neutral .f32 hφ) (r : Fin 512) (j : Fin 1000) :
    broadcastTo S512x1000 (shapeCast S512x1 (multiReduction .maximumf [1] S512 x 0xFF800000#32 hr hφ hacc) hc) hb (ix2 r j)
      = Spec.rowMax (fun k => x (ix2 r k)) :=
  (RowReduce.broadcastTo_a1_ab_apply _ hb r j).trans
    ((RowReduce.shapeCast_a_a1_apply _ hc r 0).trans (RowReduce.rowMax_apply x _ hr hφ hacc r))

/-- Scores minus the broadcast row maximum, minus the broadcast logarithm of the row sum of the exponentials, at
    `(r, j)`: the log-softmax of row `r` at class `j`. -/
theorem logSoftmaxB_apply (x : FVec Ideal S512x1000 .f32) (hr : S512x1000.Reduces [1] S512) (hc : S512.ShapeCasts S512x1)
    (hb : S512x1.Broadcasts S512x1000) (hφ : FKind.Formats .f32)
    (hmax : (0xFF800000#32 : BitVec (FTy.bits .f32)) = FKind.maximumf.neutral .f32 hφ)
    (hadd : (0x00000000#32 : BitVec (FTy.bits .f32)) = FKind.add.neutral .f32 hφ) (r : Fin 512) (j : Fin 1000) :
    subf
        (subf x (broadcastTo S512x1000 (shapeCast S512x1 (multiReduction .maximumf [1] S512 x 0xFF800000#32 hr hφ hmax) hc) hb))
        (broadcastTo S512x1000
          (log (shapeCast S512x1
            (multiReduction .add [1] S512
              (exp (subf x (broadcastTo S512x1000 (shapeCast S512x1 (multiReduction .maximumf [1] S512 x 0xFF800000#32 hr hφ hmax) hc) hb)))
              0x00000000#32 hr hφ hadd) hc)) hb) (ix2 r j)
      = Spec.logSoftmax (fun k => x (ix2 r k)) j := by
  have hB : ∀ k : Fin 1000,
      broadcastTo S512x1000 (shapeCast S512x1 (multiReduction .maximumf [1] S512 x 0xFF800000#32 hr hφ hmax) hc) hb (ix2 r k)
        = Spec.rowMax (fun k => x (ix2 r k)) := fun k => rowMaxB_apply x hr hc hb hφ hmax r k
  unfold Spec.logSoftmax
  refine congrArg₂ (fun p q : EReal => p - q) (congrArg (fun t : EReal => x (ix2 r j) - t) (hB j)) ?_
  refine (RowReduce.broadcastTo_a1_ab_apply _ hb r j).trans ?_
  refine congrArg Ideal.log ((RowReduce.shapeCast_a_a1_apply _ hc r 0).trans ((RowReduce.rowSum_apply _ _ hr hφ hadd r).trans ?_))
  exact Finset.sum_congr rfl fun k _ => congrArg (fun t : EReal => Ideal.exp (x (ix2 r k) - t)) (hB k)

/-! ## The 0/1 rows "column index = label" -/

/-- The column counter `0, 1, …, 999` of one row, broadcast over the 512 rows, at `(r, k)`: the word of `k`. -/
theorem iotaB_apply (hi : S1x1000.Iotas .tc 32 [1]) (hb : S1x1000.Broadcasts S512x1000) (r : Fin 512) (k : Fin 1000) :
    broadcastTo S512x1000 (iota .tc S1x1000 32 [1] hi) hb (ix2 r k) = BitVec.ofNat 32 k.val :=
  (broadcastTo_1b_ab_apply _ hb r k).trans
    (congrArg (BitVec.ofNat 32) (show 0 * 1000 + k.val = k.val by omega))

/-- The label column broadcast over the 1000 columns, at `(r, k)`: the label of row `r`. -/
theorem labelB_apply (w : IVec S512x1 32) (hs : S512x1.ShapeCasts S512x1) (hb : S512x1.Broadcasts S512x1000)
    (r : Fin 512) (k : Fin 1000) :
    broadcastTo S512x1000 (shapeCast S512x1 w hs) hb (ix2 r k) = w (ix2 r (0 : Fin 1)) := by
  rw [shapeCast_self]
  exact RowReduce.broadcastTo_a1_ab_apply w hb r k

/-- The one-bit answer of an equality test, widened to a 32-bit word and read as a signed number on the extended
    reals: `1` where the words are equal and `0` where they are not. -/
theorem eqWord (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  by_cases h : a = b
  · have e : IntOp.cmpi .eq a b = 1#1 := by
      show BitVec.ofBool (a == b) = 1#1
      rw [beq_iff_eq.2 h]; rfl
    rw [e, if_pos h]
    have : ((1#1 : BitVec 1).setWidth 32).toInt = 1 := by decide
    rw [this]; norm_num
  · have e : IntOp.cmpi .eq a b = 0#1 := by
      show BitVec.ofBool (a == b) = 0#1
      rw [beq_eq_false_iff_ne.2 h]; rfl
    rw [e, if_neg h]
    have : ((0#1 : BitVec 1).setWidth 32).toInt = 0 := by decide
    rw [this]; norm_num

/-- The 0/1 rows at `(r, k)`: `1` where the word of `k` is the label of row `r`, else `0`. -/
theorem onehot_apply (w : IVec S512x1 32) (hi : S1x1000.Iotas .tc 32 [1]) (hb1 : S1x1000.Broadcasts S512x1000)
    (hs : S512x1.ShapeCasts S512x1) (hb2 : S512x1.Broadcasts S512x1000) (h132 : 1 < 32) (hbf : FTy.bits .bf16 < FTy.bits .f32)
    (r : Fin 512) (k : Fin 1000) :
    (truncf .bf16 (sitofp (F := Ideal) .f32 (extui 32 (cmpi .eq (broadcastTo S512x1000 (iota .tc S1x1000 32 [1] hi) hb1)
        (broadcastTo S512x1000 (shapeCast S512x1 w hs) hb2)) h132)) hbf : FVec Ideal S512x1000 .bf16) (ix2 r k)
      = if BitVec.ofNat 32 k.val = w (ix2 r (0 : Fin 1)) then (1 : EReal) else 0 := by
  show FloatOps.sitofp (F := Ideal) .f32 ((IntOp.cmpi .eq (broadcastTo S512x1000 (iota .tc S1x1000 32 [1] hi) hb1 (ix2 r k))
      (broadcastTo S512x1000 (shapeCast S512x1 w hs) hb2 (ix2 r k))).setWidth 32) = _
  rw [iotaB_apply hi hb1 r k, labelB_apply w hs hb2 r k]
  exact eqWord _ _

/-- A label word in `[0, 1000)` is the word of `k < 1000` exactly when `k` is its class. -/
theorem ofNat_eq_iff_cls (w : BitVec 32) (hw : 0 ≤ w.toInt ∧ w.toInt < 1000) (k : Fin 1000) :
    BitVec.ofNat 32 k.val = w ↔ Spec.cls w = k := by
  rw [Lib.ofNat_eq_iff_toInt k.val (by have := k.isLt; omega) w]
  unfold Spec.cls
  rw [Fin.ext_iff]
  show w.toInt = (k.val : Int) ↔ min w.toInt.toNat 999 = k.val
  have := k.isLt
  omega

/-! ## The table row of a label -/

/-- The dimension numbers of the body's product are a plain product's. -/
theorem plainDot : Lib.PlainDot dot_S512x1000_S1000x1000_S512x1000_1_0_0_1_n_n := ⟨rfl, rfl, rfl, rfl, rfl, rfl⟩

/-- 0/1 rows times the table, accumulated into zeros, at `(r, j)`: the table at the class of row `r`'s label, column `j`. -/
theorem tableRow_apply (w : IVec S512x1 32) (tab : FVec Ideal S1000x1000 .f32) (oh : FVec Ideal S512x1000 .bf16)
    (hoh : ∀ (r : Fin 512) (k : Fin 1000), oh (ix2 r k) = if BitVec.ofNat 32 k.val = w (ix2 r (0 : Fin 1)) then (1 : EReal) else 0)
    (hw : ∀ r : Fin 512, 0 ≤ (w (ix2 r (0 : Fin 1))).toInt ∧ (w (ix2 r (0 : Fin 1))).toInt < 1000)
    (hs : S1000x1000.ShapeCasts S1000x1000) (hbf : FTy.bits .bf16 < FTy.bits .f32) (r : Fin 512) (j : Fin 1000) :
    matmul dot_S512x1000_S1000x1000_S512x1000_1_0_0_1_n_n none oh
        (truncf .bf16 (shapeCast S1000x1000 tab hs) hbf : FVec Ideal S1000x1000 .bf16) (constant (F := Ideal) S512x1000 .f32 0x00000000#32) (ix2 r j)
      = tab (ix2 (Spec.cls (w (ix2 r (0 : Fin 1)))) j) := by
  refine (plainDot.matmul_zero_apply none oh _ r j).trans ?_
  rw [shapeCast_self]
  have e : ∀ k : Fin 1000, oh (ix2 r k) * (truncf .bf16 tab hbf : FVec Ideal S1000x1000 .bf16) (ix2 k j)
      = if Spec.cls (w (ix2 r (0 : Fin 1))) = k then tab (ix2 k j) else 0 := fun k => by
    rw [hoh r k]
    show (if BitVec.ofNat 32 k.val = w (ix2 r (0 : Fin 1)) then (1 : EReal) else 0) * tab (ix2 k j) = _
    rw [Lib.mask_mul]
    exact if_congr (ofNat_eq_iff_cls _ (hw r) k) rfl rfl
  rw [Finset.sum_congr rfl fun k _ => e k, Finset.sum_ite_eq Finset.univ _ fun k => tab (ix2 k j), if_pos (Finset.mem_univ _)]

/-! ## The sum down a column -/

/-- Along the first axis of `[a, b]`, the source index over column `c` with coordinate `k` inserted is `(k, c)`. -/
theorem lift_col {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A sum down the columns of a matrix of extended reals, at column `c`: the finite sum of that column's entries. -/
theorem colSum_apply {φ : FTy} {a b : ℕ} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_col h c k)

/-! ## The two stored values -/

/-- The value stored at the first grid point: zero. -/
theorem pay1_apply (y : Cert.KernelIdeal.S1x1.Idx) : Cert.KernelIdeal.Gen.k0_pay1 (F := Ideal) y = 0 := by
  unfold Gen.k0_pay1
  rw [shapeCast_self]
  exact Ideal.ofBits_zero_f32

/-- The value stored at every grid point: the old accumulator plus, over the block's 512 rows, minus the row's
    weighted log-likelihood under the table row of its label. -/
theorem pay2_apply (x0 : Vec Ideal Cert.KernelIdeal.S512x1000 .f32) (x1 : Vec Ideal Cert.KernelIdeal.S512x1 .i32)
    (x2 : Vec Ideal Cert.KernelIdeal.S1000x1000 .f32) (xs : Vec Ideal Cert.KernelIdeal.S1x1 .f32)
    (h1 : ∀ r : Fin 512, 0 ≤ (x1 (ix2 r (0 : Fin 1))).toInt ∧ (x1 (ix2 r (0 : Fin 1))).toInt < 1000)
    (y : Cert.KernelIdeal.S1x1.Idx) :
    Cert.KernelIdeal.Gen.k0_pay2 (F := Ideal) x0 x1 x2 xs y
      = xs y + ∑ r : Fin 512, (0 - Cert.Spec.rowTerm (fun j => x2 (ix2 (Cert.Spec.cls (x1 (ix2 r (0 : Fin 1)))) j)) (fun j => x0 (ix2 r j))) := by
  obtain ⟨u, v, rfl⟩ : ∃ u v : Fin 1, y = ix2 u v := ⟨y 0, y 1, eq_ix2 y⟩
  unfold Gen.k0_pay2
  rw [shapeCast_self]
  refine congrArg (fun t : EReal => xs (ix2 u v) + t) ?_
  refine (RowReduce.shapeCast_a_a1_apply _ _ u v).trans ?_
  refine (colSum_apply _ _ _ _ _ u).trans ?_
  refine Finset.sum_congr rfl fun r _ => ?_
  refine congrArg₂ (fun p q : EReal => p - q) Ideal.ofBits_zero_f32 ?_
  refine (RowReduce.shapeCast_a_a1_apply _ _ r u).trans ?_
  refine (RowReduce.rowSum_apply _ _ _ _ _ r).trans ?_
  unfold Spec.rowTerm
  refine Finset.sum_congr rfl fun j _ => ?_
  refine congrArg₂ (fun p q : EReal => p * q) ?_ (logSoftmaxB_apply x0 _ _ _ _ _ _ r j)
  exact tableRow_apply x1 x2 _ (fun r k => onehot_apply x1 _ _ _ _ _ _ r k) h1 _ _ r j

end Cert.KernelPayload

end
-- ==== Proof.Algebra.lean ====
/-
  The closing algebra: the kernel's running sum of minus the per-sample terms, block by block, divided by the batch
  size, is minus the batch mean of the per-sample terms.

  This needs the per-sample terms to be REAL numbers: on the extended reals `-(a + b) = -a + -b` fails when `a` and
  `b` are opposite infinities, so negation does not move through a sum in general. With every term a real `a b`,
  each block's contribution `∑ r, (0 - a (512 k + r))` is the real `-(∑ r, a (512 k + r))`, the running sum after the
  last of the 32 blocks is `-(∑ b, a b)`, and dividing by the batch size 16384 (a nonzero real) commutes with negation.
-/
import proofs.«417628_j78237124264173_1_alg».proof.Proof.Spec
import proofs.«417628_j78237124264173_1_alg».proof.Proof.SoftmaxReal
import proofs.«417628_j78237124264173_1_alg».proof.Proof.LibBlockSum

noncomputable section

open scoped BigOperators

namespace Cert.Algebra

open Idealize.ShloMosaic Cert.Spec Cert.Lib

/-- The bit pattern both programs divide by is the real 16384. -/
theorem batch_eq : batch = ((16384 : ℝ) : EReal) := by
  simp [batch, Ideal.ofBits, Ideal.ieee, -EReal.coe_mul]; norm_num

/-- Dividing by the batch size commutes with negating a real. -/
theorem div_batch_neg (s : ℝ) : Ideal.div (((-s : ℝ)) : EReal) batch = -(Ideal.div ((s : ℝ) : EReal) batch) := by
  rw [batch_eq, Ideal.div_coe (by norm_num : (16384 : ℝ) ≠ 0), Ideal.div_coe (by norm_num : (16384 : ℝ) ≠ 0),
    ← EReal.coe_mul, ← EReal.coe_mul, ← EReal.coe_neg]
  congr 1; ring

/-- `0 - a` for a real `a`, on the extended reals, is the real `-a`. -/
theorem zero_sub_coe (a : ℝ) : (0 : EReal) - ((a : ℝ) : EReal) = ((-a : ℝ) : EReal) := by
  rw [sub_eq_add_neg, zero_add, EReal.coe_neg]

/-- The 512 rows of block `k` lie in the batch. -/
theorem row_lt (k : ℕ) (hk : k < 32) (r : Fin 512) : 512 * k + r.val < 16384 := by
  have := r.isLt; omega

/-- One block's contribution: the sum over its 512 rows of `0 - a` is the real `-(∑ r, a (512 k + r))`. -/
theorem block_term (a : Fin 16384 → ℝ) (k : ℕ) (hk : k < 32) :
    ∑ r : Fin 512, ((0 : EReal) - ((a ⟨512 * k + r.val, row_lt k hk r⟩ : ℝ) : EReal))
      = ((-(∑ r : Fin 512, a ⟨512 * k + r.val, row_lt k hk r⟩) : ℝ) : EReal) := by
  rw [← Finset.sum_neg_distrib, ← coe_sum]
  exact Finset.sum_congr rfl fun r _ => zero_sub_coe _

/-- The real sum of block `k`, and zero past the last block. -/
def blockSum (a : Fin 16384 → ℝ) (k : ℕ) : ℝ :=
  if hk : k < 32 then ∑ r : Fin 512, a ⟨512 * k + r.val, row_lt k hk r⟩ else 0

/-- The 32 block sums add up to the batch sum. -/
theorem sum_blockSum (a : Fin 16384 → ℝ) : ∑ k ∈ Finset.range 32, blockSum a k = ∑ b : Fin 16384, a b := by
  rw [Finset.sum_range, ← sum_blocks (n := 16384) (H := 32) (B := 512) rfl a]
  refine Finset.sum_congr rfl fun k _ => ?_
  unfold blockSum
  rw [dif_pos k.isLt]

/-- THE RUNNING SUM. A sequence that starts at `0 +` block 0's contribution and adds block `n + 1`'s contribution at
    step `n + 1` is, after block 31, minus the batch sum. -/
theorem acc_last (a : Fin 16384 → ℝ) (acc blk : ℕ → EReal)
    (hblk : ∀ k (hk : k < 32), blk k = ∑ r : Fin 512, ((0 : EReal) - ((a ⟨512 * k + r.val, row_lt k hk r⟩ : ℝ) : EReal)))
    (h0 : acc 0 = 0 + blk 0) (hs : ∀ n, n + 1 < 32 → acc (n + 1) = acc n + blk (n + 1)) :
    acc 31 = ((-(∑ b : Fin 16384, a b) : ℝ) : EReal) := by
  have hb : ∀ k, k < 32 → blk k = ((-(blockSum a k) : ℝ) : EReal) := fun k hk => by
    rw [hblk k hk, block_term a k hk]; unfold blockSum; rw [dif_pos hk]
  have key : ∀ n, n < 32 → acc n = ((-(∑ k ∈ Finset.range (n + 1), blockSum a k) : ℝ) : EReal) := by
    intro n
    induction n with
    | zero =>
      intro h
      rw [h0, hb 0 h, zero_add, Finset.sum_range_one]
    | succ n ih =>
      intro h
      rw [hs n h, ih (by omega), hb (n + 1) h, ← EReal.coe_add, Finset.sum_range_succ _ (n + 1)]
      congr 1; ring
  rw [key 31 (by norm_num), sum_blockSum]

/-- The loss when every per-sample term is a real `a b`: minus the batch sum over 16384. -/
theorem loss_of_real (tab : (⟨2, ![1000, 1000]⟩ : Shape).Idx → EReal) (x : (⟨2, ![16384, 1000]⟩ : Shape).Idx → EReal)
    (t : (⟨1, ![16384]⟩ : Shape).Idx → BitVec 32) (a : Fin 16384 → ℝ)
    (ha : ∀ b : Fin 16384, rowTerm (fun j => tab (ValueIdx.ix2 (cls (t (ValueIdx.ix1 b))) j)) (fun j => x (ValueIdx.ix2 b j)) = ((a b : ℝ) : EReal)) :
    loss tab x t = Ideal.div (((-(∑ b : Fin 16384, a b) : ℝ)) : EReal) batch := by
  unfold loss total
  rw [div_batch_neg, ← coe_sum]
  exact congrArg (fun s => -(Ideal.div s batch)) (Finset.sum_congr rfl fun b _ => ha b)

end Cert.Algebra

end
-- ==== Proof.KernelValue.lean ====
/-
  The kernel's result, read off its frame run.

  Point `k` of the grid adds to the one-element accumulator the block's contribution
  `∑ r < 512, (0 - rowTerm (table row of label 512 k + r) (logits row 512 k + r))`; point 0 starts from zero. So after
  point `n` the accumulator holds the running sum `acc n`; the last point (31) copies it to the output block, the only
  block ever written back, which is the whole one-element output array; the host then reshapes it to a scalar and divides
  by the batch size. The labels must lie in `[0, 1000)` for the kernel's one-hot product to pick a table row.
-/
import proofs.«417628_j78237124264173_1_alg».proof.Proof.Gen.KernelIdeal.Frame
import proofs.«417628_j78237124264173_1_alg».proof.Proof.KernelPieces
import proofs.«417628_j78237124264173_1_alg».proof.Proof.KernelBlocks
import proofs.«417628_j78237124264173_1_alg».proof.Proof.KernelPayload
import proofs.«417628_j78237124264173_1_alg».proof.Proof.Algebra
import Idealize.ShloMosaic.Lib.Pipeline.Value

set_option maxRecDepth 16384

noncomputable section

open scoped BigOperators

namespace Cert.KernelIdeal.Result

open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ)

/-- The argument arrays and the table as the region finds it, at their literal types. -/
abbrev logits (c : Dev nD) : Vec Ideal S16384x1000 .f32 := m ((c : Thread nD τ).loc main_arg0)
abbrev labels (c : Dev nD) : Vec Ideal S16384 .i32 := m ((c : Thread nD τ).loc main_arg1)
abbrev table (c : Dev nD) : Vec Ideal S1000x1000 .f32 := V m c main_v23

/-- One sample's term: the table row of its label against the log-softmax of its scores. -/
def sample (c : Dev nD) (b : Fin 16384) : EReal :=
  Spec.rowTerm (fun j => table m c (ix2 (Spec.cls (labels m c (ix1 b))) j)) (fun j => logits m c (ix2 b j))

/-- Block `k`'s contribution to the accumulator (zero past the last block). -/
def blk (c : Dev nD) (k : ℕ) : EReal :=
  if hk : k < 32 then ∑ r : Fin 512, ((0 : EReal) - sample m c ⟨512 * k + r.val, Algebra.row_lt k hk r⟩) else 0

/-- The accumulator after point `n`. -/
def acc (c : Dev nD) : ℕ → EReal
  | 0 => 0 + blk m c 0
  | n + 1 => acc c n + blk m c (n + 1)

/-- The labels are class numbers. -/
def InRange : Prop := ∀ (c : Dev nD) (b : Fin 16384), 0 ≤ (labels m c (ix1 b)).toInt ∧ (labels m c (ix1 b)).toInt < 1000

theorem lt32 (t : Fin cfg0.N) : t.val < 32 := lt_of_lt_of_eq t.isLt (show cfg0.N = 32 from N_0)

/-- The three input blocks at point `t`, at their literal types. -/
abbrev xblk (c : Dev nD) (t : Fin cfg0.N) : Vec Ideal S512x1000 .f32 := iblk m c 0 t
abbrev tblk (c : Dev nD) (t : Fin cfg0.N) : Vec Ideal S512x1 .i32 := iblk m c 1 t
abbrev mblk (c : Dev nD) (t : Fin cfg0.N) : Vec Ideal S1000x1000 .f32 := iblk m c 2 t

/-- The label word the body sees at row `r` of point `t` is label `512 t + r`. -/
theorem label_at (c : Dev nD) (t : Fin cfg0.N) (r : Fin 512) :
    tblk m c t (ix2 r (0 : Fin 1)) = labels m c (ix1 ⟨512 * t.val + r.val, Blocks.lt_rows t r⟩) :=
  (Blocks.tblk_apply m c t r 0).trans (Blocks.targets_col_apply m c _ 0)

/-- The table row the body's one-hot product picks at row `r` of point `t`. -/
theorem tabrow_at (c : Dev nD) (t : Fin cfg0.N) (r : Fin 512) :
    (fun j => mblk m c t (ix2 (Spec.cls (tblk m c t (ix2 r (0 : Fin 1)))) j))
      = fun j => table m c (ix2 (Spec.cls (labels m c (ix1 ⟨512 * t.val + r.val, Blocks.lt_rows t r⟩))) j) := by
  funext j
  rw [label_at m c t r]
  exact Blocks.mblk_apply m c t _ j

/-- The scores the body sees at row `r` of point `t`. -/
theorem xrow_at (c : Dev nD) (t : Fin cfg0.N) (r : Fin 512) :
    (fun j => xblk m c t (ix2 r j)) = fun j => logits m c (ix2 ⟨512 * t.val + r.val, Blocks.lt_rows t r⟩ j) := by
  funext j
  exact (Blocks.xblk_apply m c t r j).trans (congrFun (V_main_arg0 m c) _)

/-- The block's contribution, written over the point's blocks. -/
theorem blk_eq (c : Dev nD) (t : Fin cfg0.N) :
    ∑ r : Fin 512, ((0 : EReal) - Spec.rowTerm (fun j => mblk m c t (ix2 (Spec.cls (tblk m c t (ix2 r (0 : Fin 1)))) j)) (fun j => xblk m c t (ix2 r j)))
      = blk m c t.val := by
  unfold blk
  rw [dif_pos (lt32 t)]
  refine Finset.sum_congr rfl fun r _ => ?_
  rw [tabrow_at m c t r, xrow_at m c t r]
  rfl

/-- THE BODY AT A POINT: the accumulator's new value is its old value plus the block's contribution. -/
theorem body_at (hR : InRange m) (c : Dev nD) (t : Fin cfg0.N) (xs : Vec Ideal S1x1 .f32) (y : S1x1.Idx) :
    k0_pay2 (F := Ideal) (xblk m c t) (tblk m c t) (mblk m c t) xs y = xs y + blk m c t.val := by
  have h1 : ∀ r : Fin 512, 0 ≤ (tblk m c t (ix2 r (0 : Fin 1))).toInt ∧ (tblk m c t (ix2 r (0 : Fin 1))).toInt < 1000 := fun r => by
    rw [label_at m c t r]; exact hR c _
  rw [Cert.KernelPayload.pay2_apply (xblk m c t) (tblk m c t) (mblk m c t) xs h1 y, blk_eq m c t]

/-- THE ACCUMULATION: after point `n` the scratch holds the running sum. -/
theorem scratch_at (hR : InRange m) (c : Dev nD) :
    ∀ (n : ℕ) (t : Fin cfg0.N), t.val = n → ∀ y : S1x1.Idx, (outsAt0 m c t.val t.isLt).2 y = acc m c n := by
  intro n
  induction n with
  | zero =>
    intro t ht y
    have h0 : t.val % 32 = 0 := by omega
    have h1 : ¬t.val % 32 = 31 := by omega
    rw [outsAt0_A m c t h0 h1]
    dsimp only
    rw [Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)]
    refine (body_at m hR c t _ y).trans ?_
    rw [Cert.KernelPayload.pay1_apply y, ht]
    rfl
  | succ n ih =>
    intro t ht y
    have hlt := lt32 t
    have h0 : ¬t.val % 32 = 0 := by omega
    have hp : t.val - 1 < cfg0.N := Nat.lt_of_le_of_lt (Nat.sub_le _ _) t.isLt
    have hprev : ∀ y', (outsAt0 m c (t.val - 1) hp).2 y' = acc m c n :=
      fun y' => ih ⟨t.val - 1, hp⟩ (by show t.val - 1 = n; omega) y'
    by_cases h1 : t.val % 32 = 31
    · rw [outsAt0_C m c t h0 h1]
      dsimp only
      rw [Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) hp).2]
      refine (body_at m hR c t _ y).trans ?_
      rw [hprev y, ht]
      rfl
    · rw [outsAt0_B m c t h0 h1]
      dsimp only
      rw [Pieces.scratch_mid (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) hp).2]
      refine (body_at m hR c t _ y).trans ?_
      rw [hprev y, ht]
      rfl

/-- At the last point the output block holds the accumulator as just stored: the final running sum. -/
theorem out_at_last (hR : InRange m) (c : Dev nD) (t : Fin cfg0.N) (h1 : t.val % 32 = 31) (y : S1x1.Idx) :
    (outsAt0 m c t.val t.isLt).1 y = acc m c 31 := by
  have hlt := lt32 t
  have h0 : ¬t.val % 32 = 0 := by omega
  have hp : t.val - 1 < cfg0.N := Nat.lt_of_le_of_lt (Nat.sub_le _ _) t.isLt
  have hprev : ∀ y', (outsAt0 m c (t.val - 1) hp).2 y' = acc m c 30 :=
    fun y' => scratch_at m hR c 30 ⟨t.val - 1, hp⟩ (by show t.val - 1 = 30; omega) y'
  rw [outsAt0_C m c t h0 h1]
  dsimp only
  rw [Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) hp).2]
  refine (body_at m hR c t _ y).trans ?_
  have : t.val = 31 := by omega
  rw [hprev y, this]
  rfl

/-- The last point of the grid. -/
def lastPt : Fin cfg0.N := ⟨31, by rw [show cfg0.N = 32 from N_0]; norm_num⟩

/-- What a writing-back point writes back is the final running sum (only the last point writes back). -/
theorem flushed_eq (hR : InRange m) (c : Dev nD) (t : Fin cfg0.N) (hf : (cfg0.win 3).flush t = true) :
    (dats m 0 c).flushed 3 t = ((cfg0.win 3).blk t).view.read (Elt Ideal) (fun _ => acc m c 31) := by
  have h1 : t.val % 32 = 31 := (flush0_3 t).1 hf
  show (cfg0.win 3).cut (grid0.coords t) ((dats m 0 c).after 3 t) = _
  rw [after0_3]
  funext y
  exact out_at_last m hR c t h1 y

/-- The output array has one element, and the last point's block is that element. -/
theorem covered (i : S1x1.Idx) : ∃ t : Fin cfg0.N, (cfg0.win 3).flush t = true ∧ i ∈ ((cfg0.win 3).blk t).view.set := by
  refine ⟨lastPt, (flush0_3 lastPt).2 (by decide), ?_⟩
  show i ∈ ((View.whole main_v25).slice (win0_3.rect lastPt)).set
  rw [View.set_slice_whole, Rect.mem_set_unit]
  intro a
  match a with
  | ⟨0, _⟩ =>
    show win0_3.index lastPt (0 : Fin 2) * 1 ≤ (i 0).val ∧ (i 0).val < win0_3.index lastPt (0 : Fin 2) * 1 + 1
    have hi : (i 0).val < 1 := (i 0).isLt
    rw [(Blocks.idx3 lastPt).1]; omega
  | ⟨1, _⟩ =>
    show win0_3.index lastPt (1 : Fin 2) * 1 ≤ (i 1).val ∧ (i 1).val < win0_3.index lastPt (1 : Fin 2) * 1 + 1
    have hi : (i 1).val < 1 := (i 1).isLt
    rw [(Blocks.idx3 lastPt).2]; omega

/-- THE OUTPUT ARRAY after the region: the final running sum. -/
theorem final (hR : InRange m) (c : Dev nD) : (dats m 0 c).arrAt 3 cfg0.N = fun _ => acc m c 31 :=
  (dats m 0 c).arrAt_eq_of_cover 3 (fun _ => acc m c 31) (fun t hf => flushed_eq m hR c t hf) (fun i => covered i)

/-- THE RUN, with its result named: the kernel's program ends with the final running sum over the batch size in its
    result buffer, and its arguments as launched. -/
theorem run (hR : InRange m) (ρ : Dev nD → PrngReg) :
    θ_run defs (onTc (τ := τ) (main (F := Ideal))) ⟨m, fun _ => 0, ρ⟩ (fun r => ∀ c : Dev nD,
      r.2.mem ((c.tc : Thread nD τ).loc main_v27) = (fun _ => Ideal.div (acc m c 31) Spec.batch)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v27 (Pipeline.mem_restRefs_of main_v27 (by decide) (by decide))).trans
        ((Blocks.result_eq m c).trans (by rw [final m hR c]; rfl)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Result

end
-- ==== Proof.KernelTable.lean ====
/-
  The table of label weights the region finds is the reference's table.

  Both programs build the 1000 × 1000 table with the same host operations in the same order (the distance |k − j| of
  the class numbers, the weights 1 / (distance + 1) off the diagonal, their row totals, the off-diagonal entries
  0.1 · weight / total and 0.9 on the diagonal); the two `where`s are module-local functions inlined at their calls,
  whose values are carried at the value's own type and moved to the buffer's type along an equation that is the identity
  at a literal buffer. So the composed operations of the kernel's program are, term by term, the reference's stages.
-/
import proofs.«417628_j78237124264173_1_alg».proof.Proof.Gen.KernelIdeal.Frame
import proofs.«417628_j78237124264173_1_alg».proof.Proof.RefRead

set_option maxRecDepth 16384

noncomputable section

namespace Cert.KernelIdeal.Table

open Cert.KernelIdeal Cert.KernelIdeal.Gen
open Idealize.ShloMosaic Idealize.ShloMosaic.TcCoe Idealize.ShloMosaic.Tactic Idealize.ShloMosaic.StableHlo
open Idealize.SL Idealize.SL.Sem

variable {F : FTy → Type} [FloatOps F]
variable (m : (ℓ : Loc nD τ sig) → Buf (Elt F) ℓ)

/-! Transport along a literal buffer's type equation is the identity. -/
theorem toBuf_main_cst_2 (v : (⟨S_, .f32⟩ : BufTy).Contents (Elt F)) : (StableHlo.TRef.of (T := ⟨S_, .f32⟩) main_cst_2).toBuf v = v := rfl
theorem ofBuf_main_cst_2 (v : (⟨S_, .f32⟩ : BufTy).Contents (Elt F)) : (StableHlo.TRef.of (T := ⟨S_, .f32⟩) main_cst_2).ofBuf v = v := rfl
theorem toBuf_main_call0_v0 (v : (⟨S_, .f32⟩ : BufTy).Contents (Elt F)) : (StableHlo.TRef.of (T := ⟨S_, .f32⟩) main_call0_v0).toBuf v = v := rfl
theorem ofBuf_main_call0_v0 (v : (⟨S_, .f32⟩ : BufTy).Contents (Elt F)) : (StableHlo.TRef.of (T := ⟨S_, .f32⟩) main_call0_v0).ofBuf v = v := rfl
theorem toBuf_main_call0_v1 (v : (⟨S1000x1000, .f32⟩ : BufTy).Contents (Elt F)) : (StableHlo.TRef.of (T := ⟨S1000x1000, .f32⟩) main_call0_v1).toBuf v = v := rfl
theorem ofBuf_main_call0_v1 (v : (⟨S1000x1000, .f32⟩ : BufTy).Contents (Elt F)) : (StableHlo.TRef.of (T := ⟨S1000x1000, .f32⟩) main_call0_v1).ofBuf v = v := rfl
theorem toBuf_main_v13 (v : (⟨S1000x1000, .i1⟩ : BufTy).Contents (Elt F)) : (StableHlo.TRef.of (T := ⟨S1000x1000, .i1⟩) main_v13).toBuf v = v := rfl
theorem ofBuf_main_v13 (v : (⟨S1000x1000, .i1⟩ : BufTy).Contents (Elt F)) : (StableHlo.TRef.of (T := ⟨S1000x1000, .i1⟩) main_v13).ofBuf v = v := rfl
theorem toBuf_main_v11 (v : (⟨S1000x1000, .f32⟩ : BufTy).Contents (Elt F)) : (StableHlo.TRef.of (T := ⟨S1000x1000, .f32⟩) main_v11).toBuf v = v := rfl
theorem ofBuf_main_v11 (v : (⟨S1000x1000, .f32⟩ : BufTy).Contents (Elt F)) : (StableHlo.TRef.of (T := ⟨S1000x1000, .f32⟩) main_v11).ofBuf v = v := rfl
theorem toBuf_main_v14 (v : (⟨S1000x1000, .f32⟩ : BufTy).Contents (Elt F)) : (StableHlo.TRef.of (T := ⟨S1000x1000, .f32⟩) main_v14).toBuf v = v := rfl
theorem ofBuf_main_v14 (v : (⟨S1000x1000, .f32⟩ : BufTy).Contents (Elt F)) : (StableHlo.TRef.of (T := ⟨S1000x1000, .f32⟩) main_v14).ofBuf v = v := rfl
theorem toBuf_main_cst_6 (v : (⟨S_, .f32⟩ : BufTy).Contents (Elt F)) : (StableHlo.TRef.of (T := ⟨S_, .f32⟩) main_cst_6).toBuf v = v := rfl
theorem ofBuf_main_cst_6 (v : (⟨S_, .f32⟩ : BufTy).Contents (Elt F)) : (StableHlo.TRef.of (T := ⟨S_, .f32⟩) main_cst_6).ofBuf v = v := rfl
theorem toBuf_main_call1_v0 (v : (⟨S_, .f32⟩ : BufTy).Contents (Elt F)) : (StableHlo.TRef.of (T := ⟨S_, .f32⟩) main_call1_v0).toBuf v = v := rfl
theorem ofBuf_main_call1_v0 (v : (⟨S_, .f32⟩ : BufTy).Contents (Elt F)) : (StableHlo.TRef.of (T := ⟨S_, .f32⟩) main_call1_v0).ofBuf v = v := rfl
theorem toBuf_main_call1_v1 (v : (⟨S1000x1000, .f32⟩ : BufTy).Contents (Elt F)) : (StableHlo.TRef.of (T := ⟨S1000x1000, .f32⟩) main_call1_v1).toBuf v = v := rfl
theorem ofBuf_main_call1_v1 (v : (⟨S1000x1000, .f32⟩ : BufTy).Contents (Elt F)) : (StableHlo.TRef.of (T := ⟨S1000x1000, .f32⟩) main_call1_v1).ofBuf v = v := rfl
theorem toBuf_main_v22 (v : (⟨S1000x1000, .i1⟩ : BufTy).Contents (Elt F)) : (StableHlo.TRef.of (T := ⟨S1000x1000, .i1⟩) main_v22).toBuf v = v := rfl
theorem ofBuf_main_v22 (v : (⟨S1000x1000, .i1⟩ : BufTy).Contents (Elt F)) : (StableHlo.TRef.of (T := ⟨S1000x1000, .i1⟩) main_v22).ofBuf v = v := rfl
theorem toBuf_main_v20 (v : (⟨S1000x1000, .f32⟩ : BufTy).Contents (Elt F)) : (StableHlo.TRef.of (T := ⟨S1000x1000, .f32⟩) main_v20).toBuf v = v := rfl
theorem ofBuf_main_v20 (v : (⟨S1000x1000, .f32⟩ : BufTy).Contents (Elt F)) : (StableHlo.TRef.of (T := ⟨S1000x1000, .f32⟩) main_v20).ofBuf v = v := rfl
theorem toBuf_main_v23 (v : (⟨S1000x1000, .f32⟩ : BufTy).Contents (Elt F)) : (StableHlo.TRef.of (T := ⟨S1000x1000, .f32⟩) main_v23).toBuf v = v := rfl
theorem ofBuf_main_v23 (v : (⟨S1000x1000, .f32⟩ : BufTy).Contents (Elt F)) : (StableHlo.TRef.of (T := ⟨S1000x1000, .f32⟩) main_v23).ofBuf v = v := rfl

set_option maxHeartbeats 4000000 in
/-- The table as the region finds it is the reference's last table stage. -/
theorem table_eq (c : Dev nD) : (V m c main_v23 : Vec F S1000x1000 .f32) = Cert.ReferenceIdeal.ReadP.val_main_v24 (F := F) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  simp only [toBuf_main_cst_2, ofBuf_main_cst_2, toBuf_main_call0_v0, ofBuf_main_call0_v0, toBuf_main_call0_v1, ofBuf_main_call0_v1, toBuf_main_v13, ofBuf_main_v13, toBuf_main_v11, ofBuf_main_v11, toBuf_main_v14, ofBuf_main_v14, toBuf_main_cst_6, ofBuf_main_cst_6, toBuf_main_call1_v0, ofBuf_main_call1_v0, toBuf_main_call1_v1, ofBuf_main_call1_v1, toBuf_main_v22, ofBuf_main_v22, toBuf_main_v20, ofBuf_main_v20, toBuf_main_v23, ofBuf_main_v23]
  rfl

end Cert.KernelIdeal.Table

end
-- ==== Proof.TableReal.lean ====
/-
  Every entry of the label-weight table is a real number.

  The table is built from the distance d(k, j) = |k - j| of the row and column numbers. With w(k, j) = 0 where d = 0 and
  1 / (d + 1) elsewhere, and t(k) = ∑ j, w(k, j), the entry is a fixed constant where d = 0 and another fixed constant times
  w(k, j) / t(k) elsewhere. Both divisions are by nonzero reals: d + 1 ≥ 1, and t(k) > 0 because every w(k, j) ≥ 0 and a
  neighbouring column has w = 1 / 2. So every stage of the construction is a real number at every index.
-/
import Mathlib.Data.EReal.Operations
import Mathlib.Algebra.Order.BigOperators.Group.Finset
import Idealize.ShloMosaic.Lib.ValueIdx
import Idealize.ShloMosaic.Lib.StableHlo.Predicate
import Idealize.ShloMosaic.PureOps.Ideal.Laws
import proofs.«417628_j78237124264173_1_alg».proof.Proof.RefRead
import proofs.«417628_j78237124264173_1_alg».proof.Proof.SoftmaxReal

noncomputable section

open scoped BigOperators

namespace Cert.TableReal

open Cert.ReferenceIdeal Cert.ReferenceIdeal.ReadP Idealize.ShloMosaic Idealize.ShloMosaic.ValueIdx

/-! ### The distance word -/

/-- The 32-bit word `|k - j|`: the two's-complement absolute value of the difference of the two row numbers. -/
def dist (k j : Fin 1000) : BitVec 32 :=
  IntOp.absi (IntOp.subi (BitVec.ofNat 32 k.val) (BitVec.ofNat 32 j.val))

/-- Stage 7 at `(k, j)` is the distance word. -/
theorem v7_eq (k j : Fin 1000) : val_main_v7 (F := Ideal) (ix2 k j) = dist k j := by
  rw [val_main_v7_apply, val_main_v6_apply, val_main_v4_apply, val_main_v5_apply, val_main_v2_apply,
    val_main_v3_apply, val_main_v1_apply, val_main_v1_apply]
  rfl

/-- The distance word, read as a signed integer, is `|k - j|`. -/
theorem dist_toInt (k j : Fin 1000) : (dist k j).toInt = |(k.val : ℤ) - (j.val : ℤ)| := by
  have hk := k.isLt
  have hj := j.isLt
  unfold dist IntOp.absi IntOp.subi
  rw [BitVec.msb_eq_toInt]
  have hd : (BitVec.ofNat 32 k.val - BitVec.ofNat 32 j.val).toInt = (k.val : ℤ) - (j.val : ℤ) := by
    rw [BitVec.toInt_sub, StableHlo.Predicate.toInt_ofNat_small _ (by omega), StableHlo.Predicate.toInt_ofNat_small _ (by omega)]
    simp only [Int.bmod]
    omega
  by_cases h : (BitVec.ofNat 32 k.val - BitVec.ofNat 32 j.val).toInt < 0
  · rw [decide_eq_true h, if_pos rfl, BitVec.toInt_neg, hd]
    rw [hd] at h
    rw [abs_of_neg h]
    simp only [Int.bmod]
    omega
  · rw [decide_eq_false h, if_neg (by simp), hd]
    rw [hd] at h
    rw [abs_of_nonneg (by omega)]

/-! ### The distance and the weights as real numbers -/

/-- The distance as a real number. -/
def dR (k j : Fin 1000) : ℝ := ((dist k j).toInt : ℝ)

theorem dR_eq (k j : Fin 1000) : dR k j = |(k.val : ℝ) - (j.val : ℝ)| := by
  unfold dR
  rw [dist_toInt]
  push_cast
  rfl

theorem dR_nonneg (k j : Fin 1000) : 0 ≤ dR k j := by
  rw [dR_eq]
  exact abs_nonneg _

/-- The distance vanishes exactly on the diagonal. -/
theorem dR_eq_zero_iff (k j : Fin 1000) : dR k j = 0 ↔ k = j := by
  rw [dR_eq, abs_eq_zero, sub_eq_zero, Nat.cast_inj, Fin.val_inj]

/-- The weight before normalisation: `0` on the diagonal, `1 / (d + 1)` off it. -/
def wR (k j : Fin 1000) : ℝ := if dR k j = 0 then 0 else 1 / (dR k j + 1)

theorem wR_nonneg (k j : Fin 1000) : 0 ≤ wR k j := by
  have hd := dR_nonneg k j
  unfold wR
  split_ifs
  · exact le_rfl
  · positivity

theorem wR_pos (k j : Fin 1000) (h : k ≠ j) : 0 < wR k j := by
  have hd := dR_nonneg k j
  unfold wR
  rw [if_neg (fun h0 => h ((dR_eq_zero_iff k j).1 h0))]
  positivity

/-- A row's total weight. -/
def totR (k : Fin 1000) : ℝ := ∑ j : Fin 1000, wR k j

/-- Every row has a column off the diagonal, whose weight is positive, and no weight is negative: the total is positive. -/
theorem totR_pos (k : Fin 1000) : 0 < totR k := by
  obtain ⟨j, hj⟩ : ∃ j : Fin 1000, k ≠ j := by
    by_cases h : k = 0
    · exact ⟨1, by rw [h]; decide⟩
    · exact ⟨0, h⟩
  exact lt_of_lt_of_le (wR_pos k j hj)
    (Finset.single_le_sum (f := fun j => wR k j) (fun i _ => wR_nonneg k i) (Finset.mem_univ j))

/-! ### Float literals -/

/-- The pattern of `1.0`. -/
theorem one_eq : Ideal.ofBits .f32 0x3F800000#32 = ((1 : ℝ) : EReal) := by
  simp [Ideal.ofBits, Ideal.ieee, -EReal.coe_mul]; norm_num

/-- A 32-bit pattern whose exponent field is not all ones denotes a real number. -/
theorem lit_real (b : BitVec 32) (h : (b.extractLsb' 23 8).toNat ≠ 2 ^ 8 - 1) :
    ∃ r : ℝ, Ideal.ofBits .f32 b = (r : EReal) := by
  show ∃ r : ℝ, Ideal.ieee 8 23 b = (r : EReal)
  unfold Ideal.ieee
  dsimp only
  rw [if_neg h]
  split_ifs <;> exact ⟨_, rfl⟩

/-- A comparison for equality with zero selects between its two branches by whether the real number is zero. -/
theorem sel_eq (d : ℝ) (a b : EReal) :
    Scalar.select (Ideal.cmp .oeq ((d : ℝ) : EReal) 0) a b = if d = 0 then a else b := by
  by_cases h : d = 0
  · subst h
    rw [if_pos rfl]
    show Scalar.select (BitVec.ofBool (decide (((0 : ℝ) : EReal) = 0))) a b = a
    rw [decide_eq_true EReal.coe_zero]
    exact select_one a b
  · rw [if_neg h]
    show Scalar.select (BitVec.ofBool (decide (((d : ℝ) : EReal) = 0))) a b = b
    rw [decide_eq_false (by rwa [EReal.coe_eq_zero])]
    exact select_zero a b

/-! ### The stages of the construction, read at `(k, j)` -/

theorem v8_eq (k j : Fin 1000) : val_main_v8 (F := Ideal) (ix2 k j) = ((dR k j : ℝ) : EReal) := by
  rw [val_main_v8_apply, v7_eq]
  rfl

theorem v10_eq (k j : Fin 1000) : val_main_v10 (F := Ideal) (ix2 k j) = ((dR k j + 1 : ℝ) : EReal) := by
  rw [val_main_v10_apply, v8_eq, val_main_v9_apply, val_main_cst_apply, Ideal.addf_def, Ideal.ofBits_def, one_eq,
    EReal.coe_add]

theorem v12_eq (k j : Fin 1000) : val_main_v12 (F := Ideal) (ix2 k j) = ((1 / (dR k j + 1) : ℝ) : EReal) := by
  have hne : dR k j + 1 ≠ 0 := by
    have := dR_nonneg k j
    linarith
  rw [val_main_v12_apply, v10_eq, val_main_v11_apply, val_main_cst_0_apply, Ideal.hostDivf_def, Ideal.ofBits_def, one_eq,
    Ideal.div_coe hne, ← EReal.coe_mul, one_mul]

theorem v15_eq (k j : Fin 1000) : val_main_v15 (F := Ideal) (ix2 k j) = ((wR k j : ℝ) : EReal) := by
  rw [val_main_v15_apply, val_main_v14_apply, v8_eq, val_main_v13_apply, val_main_cst_1_apply, v12_eq,
    val_main_call1_v1_apply, val_main_call1_v0_apply, val_main_cst_2_apply, Ideal.cmpf_def, Ideal.ofBits_def,
    Ideal.ofBits_zero_f32, sel_eq]
  unfold wR
  by_cases h : dR k j = 0
  · rw [if_pos h, if_pos h, EReal.coe_zero]
  · rw [if_neg h, if_neg h]

theorem idx16 (i : S1000.Idx) (j : Fin 1000) : idx_main_v16 i j = @ix2 1000 1000 (i 0) j := by
  funext a
  match a with
  | ⟨0, _⟩ => rfl
  | ⟨1, _⟩ => rfl

theorem v16_eq (i : S1000.Idx) : val_main_v16 (F := Ideal) i = ((totR (i 0) : ℝ) : EReal) := by
  rw [val_main_v16_apply, val_main_cst_3_apply, Ideal.ofBits_def, Ideal.ofBits_zero_f32, zero_add]
  unfold totR
  rw [← Cert.Spec.coe_sum]
  refine Finset.sum_congr rfl fun j _ => ?_
  rw [idx16]
  exact v15_eq (i 0) j

theorem v18_eq (k j : Fin 1000) : val_main_v18 (F := Ideal) (ix2 k j) = ((totR k : ℝ) : EReal) := by
  rw [val_main_v18_apply, val_main_v17_apply, v16_eq]
  rfl

theorem v19_eq (k j : Fin 1000) :
    val_main_v19 (F := Ideal) (ix2 k j) = ((wR k j * (1 / totR k) : ℝ) : EReal) := by
  rw [val_main_v19_apply, v15_eq, v18_eq, Ideal.hostDivf_def, Ideal.div_coe (totR_pos k).ne', ← EReal.coe_mul]

/-- Every entry of the table, at `(k, j)`, is a real number. -/
theorem table_real_ix (k j : Fin 1000) : ∃ r : ℝ, val_main_v24 (F := Ideal) (ix2 k j) = (r : EReal) := by
  obtain ⟨c1, hc1⟩ := lit_real 0x3DCCCCCD#32 (by decide)
  obtain ⟨c9, hc9⟩ := lit_real 0x3F666666#32 (by decide)
  rw [val_main_v24_apply, val_main_v23_apply, v8_eq, val_main_v22_apply, val_main_cst_5_apply,
    val_main_call2_v1_apply, val_main_call2_v0_apply, val_main_cst_6_apply, val_main_v21_apply, val_main_v20_apply,
    val_main_cst_4_apply, v19_eq, Ideal.cmpf_def, Ideal.mulf_def, Ideal.ofBits_def, Ideal.ofBits_def, Ideal.ofBits_def,
    Ideal.ofBits_zero_f32, sel_eq, hc1, hc9, ← EReal.coe_mul]
  by_cases h : dR k j = 0
  · exact ⟨c9, by rw [if_pos h]⟩
  · exact ⟨_, by rw [if_neg h]⟩

/-- Every entry of the label-weight table is a real number. -/
theorem table_real (i : Cert.ReferenceIdeal.S1000x1000.Idx) :
    ∃ r : ℝ, Cert.ReferenceIdeal.ReadP.val_main_v24 (F := Ideal) i = (r : EReal) := by
  rw [eq_ix2 i]
  exact table_real_ix (i 0) (i 1)

end Cert.TableReal

end
-- ==== Proof.PreFacts.lean ====
/-
  The precondition, decoded.

  The printed precondition says: every score has absolute value below +∞ (joined by `and` over both axes), and every
  label word is at least 0 and below 1000 as a signed number (joined by `and` over the batch); the two verdicts are joined
  by `and`. Read back: every score is a real number, and every label lies in `[0, 1000)`.
-/
import Idealize.ShloMosaic.Lib.ReduceAll
import Idealize.ShloMosaic.Lib.ValueIdx
import Idealize.ShloMosaic.Lib.StableHlo.Predicate
import Idealize.ShloMosaic.PureOps.Ideal
import proofs.«417628_j78237124264173_1_alg».proof.Pre_finite_inputs

noncomputable section

namespace Cert.PreFacts

open Idealize.ShloMosaic

/-- The scalar shape has one index. -/
instance : Subsingleton Cert.Pre_finite_inputs.S_.Idx := ⟨fun a b => funext fun d => d.elim0⟩

/-- The bit pattern the scores are compared against is +∞. -/
theorem posInf_eq : Ideal.ofBits .f32 0x7F800000#32 = ⊤ := by simp [Ideal.ofBits, Ideal.ieee]

/-- An extended real whose absolute value `max v (-v)` is below +∞ is a real. -/
theorem real_of_abs_lt_top (v : EReal) (h : max v (-v) < ⊤) : ∃ r : ℝ, v = (r : EReal) := by
  induction v using EReal.rec with
  | bot => simp at h
  | coe r => exact ⟨r, rfl⟩
  | top => simp at h

/-- A word that is signed-at-least 0 has a nonnegative signed value. -/
theorem toInt_nonneg_of_sge (w : BitVec 32) (h : IntOp.cmpi .sge w 0#32 = 1#1) : 0 ≤ w.toInt := by
  simp only [IntOp.cmpi, StableHlo.Predicate.ofBool_eq_one_iff, BitVec.sle, decide_eq_true_eq] at h
  simpa using h

/-- A word that is signed-below 1000 has a signed value below 1000. -/
theorem toInt_lt_of_slt (w : BitVec 32) (h : IntOp.cmpi .slt w 1000#32 = 1#1) : w.toInt < 1000 := by
  simp only [IntOp.cmpi, StableHlo.Predicate.ofBool_eq_one_iff, BitVec.slt, decide_eq_true_eq] at h
  have e : (1000#32 : BitVec 32).toInt = 1000 := by decide
  rwa [e] at h

theorem decode [Cert.Pre_finite_inputs.Facts] (x : FVec Ideal Cert.Pre_finite_inputs.S16384x1000 .f32)
    (t : IVec Cert.Pre_finite_inputs.S16384 32)
    (h : Cert.Pre_finite_inputs.fn (F := Ideal) x t = fun _ => 1#1) :
    (∀ i, ∃ r : ℝ, x i = (r : EReal)) ∧ (∀ b, 0 ≤ (t b).toInt ∧ (t b).toInt < 1000) := by
  have h0 := congrFun h ValueIdx.ix0
  dsimp only [Cert.Pre_finite_inputs.fn] at h0
  obtain ⟨h1, h2⟩ := IntOp.andi_eq_one.1 h0
  refine ⟨fun i => ?_, fun b => ?_⟩
  · -- the score at `i`: its comparison came out 1
    have hi : Ideal.cmp .olt (max (x i) (-(x i))) (Ideal.ofBits .f32 0x7F800000#32) = 1#1 :=
      Host.reduce_andi_all _ _ _ _ _ h1 i
    rw [posInf_eq] at hi
    simp only [Ideal.cmp, StableHlo.Predicate.ofBool_eq_one_iff, decide_eq_true_eq] at hi
    exact real_of_abs_lt_top _ hi
  · -- the label at `b`: both of its comparisons came out 1
    have hb := Host.reduce_andi_all _ _ _ _ _ h2 b
    obtain ⟨hge, hlt⟩ := IntOp.andi_eq_one.1 hb
    exact ⟨toInt_nonneg_of_sge _ hge, toInt_lt_of_slt _ hlt⟩

end Cert.PreFacts

end
-- ==== Proof.Bridge.lean ====
/-
  The kernel's result is the specification's loss.

  Under the precondition every score is a real number and every label is a class number in `[0, 1000)`; every entry of
  the table of label weights is a real number. So every sample's term `∑ j, table[label, j] * logSoftmax(scores) j` is a
  real number, and the closing algebra applies: the kernel's running sum of `0 -` those terms, after the last block,
  divided by the batch size, is minus the batch mean of the terms.
-/
import proofs.«417628_j78237124264173_1_alg».proof.Defs
import proofs.«417628_j78237124264173_1_alg».proof.Proof.Gen.Pre_finite_inputs
import proofs.«417628_j78237124264173_1_alg».proof.Proof.KernelValue
import proofs.«417628_j78237124264173_1_alg».proof.Proof.KernelTable
import proofs.«417628_j78237124264173_1_alg».proof.Proof.TableReal
import proofs.«417628_j78237124264173_1_alg».proof.Proof.PreFacts
import proofs.«417628_j78237124264173_1_alg».proof.Proof.SoftmaxReal
import proofs.«417628_j78237124264173_1_alg».proof.Proof.Algebra

noncomputable section

open scoped BigOperators

namespace Cert.Bridge

open Cert.KernelIdeal Cert.KernelIdeal.Gen Cert.KernelIdeal.Result
open Idealize.ShloMosaic Idealize.ShloMosaic.TcCoe Idealize.ShloMosaic.ValueIdx
open Idealize.SL Idealize.SL.Sem

variable (m : (ℓ : Loc nD τ sig) → Buf (Elt Ideal) ℓ)

/-- The precondition puts the labels in range, -/
theorem inRange (hpre : Cert.Pre_KernelIdeal m) : InRange m := fun c b =>
  (Cert.PreFacts.decode _ _ (hpre c)).2 (ix1 b)

/-- and makes every sample's term a real number. -/
theorem sample_real (hpre : Cert.Pre_KernelIdeal m) (c : Dev nD) (b : Fin 16384) :
    ∃ r : ℝ, sample m c b = (r : EReal) := by
  unfold sample
  refine Cert.Spec.rowTerm_real _ _ (fun j => ?_) (fun k => ?_)
  · show ∃ r : ℝ, (V m c main_v23 : Vec Ideal S1000x1000 .f32) _ = (r : EReal)
    rw [Cert.KernelIdeal.Table.table_eq m c]
    exact Cert.TableReal.table_real _
  · exact (Cert.PreFacts.decode _ _ (hpre c)).1 _

/-- THE KERNEL'S RESULT: the final running sum over the batch size is the loss of the reference's table and the
    arguments. -/
theorem result_eq_loss (hpre : Cert.Pre_KernelIdeal m) (c : Dev nD) :
    Ideal.div (acc m c 31) Cert.Spec.batch
      = Cert.Spec.loss (Cert.ReferenceIdeal.ReadP.val_main_v24 (F := Ideal)) (m ((c.tc : Thread nD τ).loc main_arg0)) (m ((c.tc : Thread nD τ).loc main_arg1)) := by
  choose a ha using sample_real m hpre c
  have hloss := Cert.Algebra.loss_of_real (Cert.ReferenceIdeal.ReadP.val_main_v24 (F := Ideal)) (m ((c.tc : Thread nD τ).loc main_arg0)) (m ((c.tc : Thread nD τ).loc main_arg1)) a
    (fun b => by
      have e := ha b
      unfold sample at e
      rw [show (table m c : Vec Ideal S1000x1000 .f32) = Cert.ReferenceIdeal.ReadP.val_main_v24 (F := Ideal) from Cert.KernelIdeal.Table.table_eq m c] at e
      exact e)
  rw [hloss]
  refine congrArg (fun s => Ideal.div s Cert.Spec.batch) ?_
  refine Cert.Algebra.acc_last a (acc m c) (blk m c) (fun k hk => ?_) rfl (fun n _ => rfl)
  unfold blk
  rw [dif_pos hk]
  exact Finset.sum_congr rfl fun r _ => by rw [ha]

end Cert.Bridge

end
-- ==== Proof.lean ====
/-
  The certificate of the label-smoothing cross-entropy kernel against its jnp reference.

  Both programs compute minus the batch mean of `∑ j, table[label_b, j] * logSoftmax(scores_b) j` (Spec.lean). The kernel
  walks the batch in 32 blocks of 512 rows, builds each label's table row by a one-hot matrix product and keeps a running
  sum of minus the per-sample terms; the reference gathers the table rows and sums once. They agree where every score is
  finite and every label is a class number in `[0, 1000)` (the precondition): there every per-sample term is a real number,
  so minus signs move through the sums and the division by the batch size (Algebra.lean, Bridge.lean).
  The kernel's frames are the generated frame runs; its value is read off the same run (KernelValue.lean). The reference's
  frame and value are its run (RefRun.lean) read stage by stage (RefRead.lean, RefValue.lean). No operation of the kernel
  was rewritten by the ideal pass, so the idealized kernel is the kernel's own text and `preserves` has nothing to state.
-/
import proofs.«417628_j78237124264173_1_alg».proof.Defs
import proofs.«417628_j78237124264173_1_alg».proof.Proof.Gen.Kernel
import proofs.«417628_j78237124264173_1_alg».proof.Proof.Gen.Kernel.Skeleton
import proofs.«417628_j78237124264173_1_alg».proof.Proof.Gen.Kernel.Launch
import proofs.«417628_j78237124264173_1_alg».proof.Proof.Gen.Kernel.Points
import proofs.«417628_j78237124264173_1_alg».proof.Proof.Gen.Kernel.Frame
import proofs.«417628_j78237124264173_1_alg».proof.Proof.Gen.KernelIdeal
import proofs.«417628_j78237124264173_1_alg».proof.Proof.Gen.KernelIdeal.Skeleton
import proofs.«417628_j78237124264173_1_alg».proof.Proof.Gen.KernelIdeal.Launch
import proofs.«417628_j78237124264173_1_alg».proof.Proof.Gen.KernelIdeal.Points
import proofs.«417628_j78237124264173_1_alg».proof.Proof.Gen.KernelIdeal.Frame
import proofs.«417628_j78237124264173_1_alg».proof.Proof.Gen.ReferenceIdeal
import proofs.«417628_j78237124264173_1_alg».proof.Proof.RefRun
import proofs.«417628_j78237124264173_1_alg».proof.Proof.RefRead
import proofs.«417628_j78237124264173_1_alg».proof.Proof.Gen.Pre_finite_inputs
import proofs.«417628_j78237124264173_1_alg».proof.Proof.RefValue
import proofs.«417628_j78237124264173_1_alg».proof.Proof.Bridge
import proofs.«417628_j78237124264173_1_alg».proof.Proof.PreFacts
import Idealize.ShloMosaic.Adequacy
import Idealize.ShloMosaic.Init

noncomputable section

namespace Cert.Proof

open Idealize.ShloMosaic Idealize.SL.Sem

/-- The word-level kernel runs and keeps its arguments: its generated frame run. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the arguments both idealized programs end with the loss of the table and the arguments:
    the kernel by its run and the bridge, the reference by its run read stage by stage. -/
theorem algebraic : Cert.algebraic_KernelIdeal_ReferenceIdeal := by
  intro m ρ m' ρ' hpre hagree
  have hR := Cert.Bridge.inRange m hpre
  refine ⟨fun c => fun _ => Cert.Spec.loss (Cert.ReferenceIdeal.ReadP.val_main_v24 (F := Ideal))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩) (Cert.KernelIdeal.Result.run m hR ρ)
    exact funext fun _ => Cert.Bridge.result_eq_loss m hpre c
  · refine (θ_run Cert.ReferenceIdeal.defs _ _).mono (fun _ h c => ⟨(h c).1.trans ?_, (h c).2⟩)
      (Cert.ReferenceIdeal.ValueP.run (F := Ideal) m' ρ')
    rw [(hagree c).1, (hagree c).2]
    exact Cert.RefValue.ref_loss _ _ (fun b => ((Cert.PreFacts.decode _ _ (hpre c)).2 b).1)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
